-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S512x512 : Shape := ⟨2, ![512, 512]⟩
abbrev S32x2048 : Shape := ⟨2, ![32, 2048]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S32x2048 : S_.BroadcastsInDim S32x2048 (![] : Fin 0 → Fin S32x2048.rank)
  reducesTo_S32x2048_S_d0_1 : S32x2048.ReducesTo [0, 1] S_

variable [Facts]

def fn_part1 {F : FTy → Type} [FloatOps F] (main_arg3 : IVec S32x2048 32) (main_v15 : IVec S_ 1) (main_c_5 : IVec S_ 32) : IVec S_ 1 :=
  let main_v16 : IVec S32x2048 32 := broadcastInDim S32x2048 ![] bcast_S_S32x2048 main_c_5
  let main_v17 : IVec S32x2048 1 := cmpi .sge main_arg3 main_v16
  let main_c_6 : IVec S_ 32 := constantI S_ 32 512#32
  let main_v18 : IVec S32x2048 32 := broadcastInDim S32x2048 ![] bcast_S_S32x2048 main_c_6
  let main_v19 : IVec S32x2048 1 := cmpi .slt main_arg3 main_v18
  let main_v20 : IVec S32x2048 1 := andi main_v17 main_v19
  let main_c_7 : IVec S_ 1 := constantI S_ 1 1#1
  let main_v21 : IVec S_ 1 := (fun x v => Host.reduce IntOp.andi x v reducesTo_S32x2048_S_d0_1 h_S_) main_v20 main_c_7
  let main_v22 : IVec S_ 1 := andi main_v15 main_v21
  main_v22

def fn {F : FTy → Type} [FloatOps F] (main_arg0 : FVec F S32x2048x512 .f32) (main_arg1 : FVec F S512x512 .f32) (main_arg2 : IVec S32x2048 32) (main_arg3 : IVec S32x2048 32) (main_arg4 : IVec S32x2048 32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_c_2 : IVec S_ 32 := constantI S_ 32 0#32
  let main_v9 : IVec S32x2048 32 := broadcastInDim S32x2048 ![] bcast_S_S32x2048 main_c_2
  let main_v10 : IVec S32x2048 1 := cmpi .sge main_arg2 main_v9
  let main_c_3 : IVec S_ 32 := constantI S_ 32 512#32
  let main_v11 : IVec S32x2048 32 := broadcastInDim S32x2048 ![] bcast_S_S32x2048 main_c_3
  let main_v12 : IVec S32x2048 1 := cmpi .slt main_arg2 main_v11
  let main_v13 : IVec S32x2048 1 := andi main_v10 main_v12
  let main_c_4 : IVec S_ 1 := constantI S_ 1 1#1
  let main_v14 : IVec S_ 1 := (fun x v => Host.reduce IntOp.andi x v reducesTo_S32x2048_S_d0_1 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S32x2048x512 : Shape := ⟨3, ![32, 2048, 512]⟩
abbrev S512x512 : Shape := ⟨2, ![512, 512]⟩
abbrev S32x2048 : Shape := ⟨2, ![32, 2048]⟩
abbrev S_ : Shape := ⟨0, ![]⟩
abbrev S32 : Shape := ⟨1, ![32]⟩
abbrev S2048 : Shape := ⟨1, ![2048]⟩
abbrev S1x2048 : Shape := ⟨2, ![1, 2048]⟩
abbrev S32x1 : Shape := ⟨2, ![32, 1]⟩
abbrev S2047 : Shape := ⟨1, ![2047]⟩
abbrev S1x2047 : Shape := ⟨2, ![1, 2047]⟩
abbrev S32x2047 : Shape := ⟨2, ![32, 2047]⟩
abbrev S8x256x512 : Shape := ⟨3, ![8, 256, 512]⟩
abbrev S8x256 : Shape := ⟨2, ![8, 256]⟩
abbrev S8x1 : Shape := ⟨2, ![8, 1]⟩
abbrev S8x256x1 : Shape := ⟨3, ![8, 256, 1]⟩
abbrev S8 : Shape := ⟨1, ![8]⟩
abbrev S32x2047x1 : Shape := ⟨3, ![32, 2047, 1]⟩
abbrev S32x2047x2 : Shape := ⟨3, ![32, 2047, 2]⟩

abbrev nBuf : Space → Nat
  | .hbm => 89
  | .vmem => 10
  | .smem => 0
  | _ => 0

abbrev bufTy : (tb : Table) → Fin (tcTables nBuf tb) → BufTy
  | .hbm, ⟨0, _⟩ => ⟨S32x2048x512, .f32⟩
  | .hbm, ⟨1, _⟩ => ⟨S512x512, .f32⟩
  | .hbm, ⟨2, _⟩ => ⟨S32x2048, .i32⟩
  | .hbm, ⟨3, _⟩ => ⟨S32x2048, .i32⟩
  | .hbm, ⟨4, _⟩ => ⟨S32x2048, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S_, .i32⟩
  | .hbm, ⟨11, _⟩ => ⟨S32x2048, .i32⟩
  | .hbm, ⟨12, _⟩ => ⟨S32x2048, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S32x2048, .i32⟩
  | .hbm, ⟨17, _⟩ => ⟨S32x2048, .i32⟩
  | .hbm, ⟨18, _⟩ => ⟨S_, .i32⟩
  | .hbm, ⟨19, _⟩ => ⟨S32x2048, .i32⟩
  | .hbm, ⟨20, _⟩ => ⟨S32x2048, .i32⟩
  | .hbm, ⟨21, _⟩ => ⟨S_, .i32⟩
  | .hbm, ⟨22, _⟩ => ⟨S32, .i32⟩
  | .hbm, ⟨23, _⟩ => ⟨S2048, .i32⟩
  | .hbm, ⟨24, _⟩ => ⟨S1x2048, .i32⟩
  | .hbm, ⟨25, _⟩ => ⟨S32x1, .i32⟩
  | .hbm, ⟨26, _⟩ => ⟨S32x2048, .i32⟩
  | .hbm, ⟨27, _⟩ => ⟨S32x2048, .i32⟩
  | .hbm, ⟨28, _⟩ => ⟨S32x2048, .i1⟩
  | .hbm, ⟨29, _⟩ => ⟨S32x2048, .f32⟩
  | .hbm, ⟨30, _⟩ => ⟨S2047, .i32⟩
  | .hbm, ⟨31, _⟩ => ⟨S1x2047, .i32⟩
  | .hbm, ⟨32, _⟩ => ⟨S32x1, .i32⟩
  | .hbm, ⟨33, _⟩ => ⟨S32x2047, .i32⟩
  | .hbm, ⟨34, _⟩ => ⟨S32x2047, .i32⟩
  | .hbm, ⟨35, _⟩ => ⟨S32x2047, .i1⟩
  | .hbm, ⟨36, _⟩ => ⟨S32x2047, .f32⟩
  | .hbm, ⟨37, _⟩ => ⟨S32x1, .f32⟩
  | .hbm, ⟨38, _⟩ => ⟨S32, .f32⟩
  | .hbm, ⟨39, _⟩ => ⟨S32x2047, .i32⟩
  | .hbm, ⟨40, _⟩ => ⟨S32x2047, .i32⟩
  | .hbm, ⟨41, _⟩ => ⟨S_, .i32⟩
  | .hbm, ⟨42, _⟩ => ⟨S32x2047, .i32⟩
  | .hbm, ⟨43, _⟩ => ⟨S32x2047, .i1⟩
  | .hbm, ⟨44, _⟩ => ⟨S_, .i32⟩
  | .hbm, ⟨45, _⟩ => ⟨S32x2047, .i32⟩
  | .hbm, ⟨46, _⟩ => ⟨S32x2047, .i32⟩
  | .hbm, ⟨47, _⟩ => ⟨S32x2047, .i32⟩
  | .hbm, ⟨48, _⟩ => ⟨S_, .i32⟩
  | .hbm, ⟨49, _⟩ => ⟨S32x2047, .i32⟩
  | .hbm, ⟨50, _⟩ => ⟨S32x2047, .i1⟩
  | .hbm, ⟨51, _⟩ => ⟨S_, .i32⟩
  | .hbm, ⟨52, _⟩ => ⟨S32x2047, .i32⟩
  | .hbm, ⟨53, _⟩ => ⟨S32x2047, .i32⟩
  | .hbm, ⟨54, _⟩ => ⟨S32x2047, .i32⟩
  | .hbm, ⟨55, _⟩ => ⟨S32x2047x1, .i32⟩
  | .hbm, ⟨56, _⟩ => ⟨S32x2047x1, .i32⟩
  | .hbm, ⟨57, _⟩ => ⟨S32x2047x2, .i32⟩
  | .hbm, ⟨58, _⟩ => ⟨S32x2047, .f32⟩
  | .hbm, ⟨59, _⟩ => ⟨S32x2047, .i32⟩
  | .hbm, ⟨60, _⟩ => ⟨S32x2047, .i32⟩
  | .hbm, ⟨61, _⟩ => ⟨S_, .i32⟩
  | .hbm, ⟨62, _⟩ => ⟨S32x2047, .i32⟩
  | .hbm, ⟨63, _⟩ => ⟨S32x2047, .i1⟩
  | .hbm, ⟨64, _⟩ => ⟨S_, .i32⟩
  | .hbm, ⟨65, _⟩ => ⟨S32x2047, .i32⟩
  | .hbm, ⟨66, _⟩ => ⟨S32x2047, .i32⟩
  | .hbm, ⟨67, _⟩ => ⟨S32x2047, .i32⟩
  | .hbm, ⟨68, _⟩ => ⟨S_, .i32⟩
  | .hbm, ⟨69, _⟩ => ⟨S32x2047, .i32⟩
  | .hbm, ⟨70, _⟩ => ⟨S32x2047, .i1⟩
  | .hbm, ⟨71, _⟩ => ⟨S_, .i32⟩
  | .hbm, ⟨72, _⟩ => ⟨S32x2047, .i32⟩
  | .hbm, ⟨73, _⟩ => ⟨S32x2047, .i32⟩
  | .hbm, ⟨74, _⟩ => ⟨S32x2047, .i32⟩
  | .hbm, ⟨75, _⟩ => ⟨S32x2047x1, .i32⟩
  | .hbm, ⟨76, _⟩ => ⟨S32x2047x1, .i32⟩
  | .hbm, ⟨77, _⟩ => ⟨S32x2047x2, .i32⟩
  | .hbm, ⟨78, _⟩ => ⟨S32x2047, .f32⟩
  | .hbm, ⟨79, _⟩ => ⟨S32x2047, .f32⟩
  | .hbm, ⟨80, _⟩ => ⟨S32x2047, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S_, .f32⟩
  | .hbm, ⟨88, _⟩ => ⟨S_, .f32⟩
  | .local _ .vmem, ⟨0, _⟩ => ⟨S8x256x512, .f32⟩
  | .local _ .vmem, ⟨1, _⟩ => ⟨S8x256x512, .f32⟩
  | .local _ .vmem, ⟨2, _⟩ => ⟨S8x256, .i32⟩
  | .local _ .vmem, ⟨3, _⟩ => ⟨S8x256, .i32⟩
  | .local _ .vmem, ⟨4, _⟩ => ⟨S8x256, .i32⟩
  | .local _ .vmem, ⟨5, _⟩ => ⟨S8x256, .i32⟩
  | .local _ .vmem, ⟨6, _⟩ => ⟨S8x256, .f32⟩
  | .local _ .vmem, ⟨7, _⟩ => ⟨S8x256, .f32⟩
  | .local _ .vmem, ⟨8, _⟩ => ⟨S8x1, .f32⟩
  | .local _ .vmem, ⟨9, _⟩ => ⟨S8x1, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_c_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v1 : Ref sig .tc := ⟨.hbm, 20, rfl⟩
abbrev main_c_3 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_10 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S32x2048 : S_.BroadcastsInDim S32x2048 (![] : Fin 0 → Fin S32x2048.rank)
  reducesTo_S32x2048_S32_d1 : S32x2048.ReducesTo [1] S32
  h_S_ : 0 < S_.numel
  bcast_S2048_S1x2048_1 : S2048.BroadcastsInDim S1x2048 (![1] : Fin 1 → Fin S1x2048.rank)
  bcast_S32_S32x1_0 : S32.BroadcastsInDim S32x1 (![0] : Fin 1 → Fin S32x1.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  slices_S2048_S2047_1 : S2048.Slices ![1] S2047
  bcast_S2047_S1x2047_1 : S2047.BroadcastsInDim S1x2047 (![1] : Fin 1 → Fin S1x2047.rank)
  bcast_S1x2047_S32x2047_0_1 : S1x2047.BroadcastsInDim S32x2047 (![0, 1] : Fin 2 → Fin S32x2047.rank)
  bcast_S32x1_S32x2047_0_1 : S32x1.BroadcastsInDim S32x2047 (![0, 1] : Fin 2 → Fin S32x2047.rank)
  inb_S8x1_S8x1_0_0 : ∀ a, (![0, 0] : Fin 2 → Nat) a + S8x1.size a ≤ S8x1.size a
  h_S8x1 : 0 < S8x1.numel
  inb_S8x256x512_S8x256x512_0_0_0 : ∀ a, (![0, 0, 0] : Fin 3 → Nat) a + S8x256x512.size a ≤ S8x256x512.size a
  h_S8x256x512 : 0 < S8x256x512.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  iota_S8x256x512_d2_w32 : S8x256x512.Iotas .tc 32 [2]
  shapeCasts_S8x256_S8x256x1 : S8x256.ShapeCasts S8x256x1
  broadcasts_S8x256x1_S8x256x512 : S8x256x1.Broadcasts S8x256x512
  reduces_S8x256x512_S8x256 : S8x256x512.Reduces [2] S8x256
  shapeCasts_S8x1_S8x1 : S8x1.ShapeCasts S8x1
  reduces_S8x256_S8 : S8x256.Reduces [1] S8
  shapeCasts_S8_S8x1 : S8.ShapeCasts S8x1
  shapeCasts_S32x1_S32 : S32x1.ShapeCasts S32
  slices_S32x2048_S32x2047_0_0 : S32x2048.Slices ![0, 0] S32x2047
  slices_S32x2048_S32x2047_0_1 : S32x2048.Slices ![0, 1] S32x2047
  bcast_S_S32x2047 : S_.BroadcastsInDim S32x2047 (![] : Fin 0 → Fin S32x2047.rank)
  bcast_S32x2047_S32x2047x1_0_1 : S32x2047.BroadcastsInDim S32x2047x1 (![0, 1] : Fin 2 → Fin S32x2047x1.rank)
  concatenates_S32x2047x1_S32x2047x1_S32x2047x2_d2 : Shape.Concatenates [S32x2047x1, S32x2047x1] S32x2047x2 2
  reducesTo_S32x2047_S32_d1 : S32x2047.ReducesTo [1] S32
  bcast_S_S32 : S_.BroadcastsInDim S32 (![] : Fin 0 → Fin S32.rank)
  reducesTo_S32_S_d0 : S32.ReducesTo [0] S_
  gather_S512x512_S32x2047x2_S32x2047_n_01_n_n_01_2_11_wf : GatherDims.WF S512x512 S32x2047x2 S32x2047 [] [0, 1] [] [0, 1] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S32x2048x512.size a
  hwx0_0 : ∀ i : grid0.Coords, EltTy.bits .f32 = 32 ∨ (Rect.block (s := S32x2048x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S32x2048.size a
  hwx0_1 : ∀ i : grid0.Coords, EltTy.bits .i32 = 32 ∨ (Rect.block (s := S32x2048) S8x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S32x2048.size a
  hwx0_2 : ∀ i : grid0.Coords, EltTy.bits .i32 = 32 ∨ (Rect.block (s := S32x2048) S8x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S32x2048.size a
  hwx0_3 : ∀ i : grid0.Coords, EltTy.bits .f32 = 32 ∨ (Rect.block (s := S32x2048) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S32x1.size a
  hwx0_4 : ∀ i : grid0.Coords, EltTy.bits .f32 = 32 ∨ (Rect.block (s := S32x1) S8x1.size (cc0_transform_4 i) (hinb0_4 i)).WholeWords (EltTy.packing .f32)

variable [Facts₀]

def gather_S512x512_S32x2047x2_S32x2047_n_01_n_n_01_2_11 : GatherDims S512x512 S32x2047x2 S32x2047 where
  offsetDims := []
  collapsedSliceDims := [0, 1]
  operandBatchingDims := []
  startIndicesBatchingDims := []
  startIndexMap := [0, 1]
  indexVectorDim := 2
  sliceSizes := ![1, 1]
  wf := gather_S512x512_S32x2047x2_S32x2047_n_01_n_n_01_2_11_wf

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S512x512 : Shape := ⟨2, ![512, 512]⟩
abbrev S32x2048 : Shape := ⟨2, ![32, 2048]⟩
abbrev S_ : Shape := ⟨0, ![]⟩
abbrev S32 : Shape := ⟨1, ![32]⟩
abbrev S2048 : Shape := ⟨1, ![2048]⟩
abbrev S1x2048 : Shape := ⟨2, ![1, 2048]⟩
abbrev S32x1 : Shape := ⟨2, ![32, 1]⟩
abbrev S32x2048x1 : Shape := ⟨3, ![32, 2048, 1]⟩
abbrev S32x2048x1x1 : Shape := ⟨4, ![32, 2048, 1, 1]⟩
abbrev S1 : Shape := ⟨1, ![1]⟩
abbrev S1x1x1x1 : Shape := ⟨4, ![1, 1, 1, 1]⟩
abbrev S32x2047 : Shape := ⟨2, ![32, 2047]⟩
abbrev S32x2047x1 : Shape := ⟨3, ![32, 2047, 1]⟩
abbrev S32x2047x2 : Shape := ⟨3, ![32, 2047, 2]⟩
abbrev S2047 : Shape := ⟨1, ![2047]⟩
abbrev S1x2047 : Shape := ⟨2, ![1, 2047]⟩

abbrev nBuf : Space → Nat
  | .hbm => 145
  | .vmem => 0
  | .smem => 0
  | _ => 0

abbrev hbmTy0_0 (i : Nat) : BufTy := match i % 128 with
  | 0 => ⟨S32x2048x512, .f32⟩
  | 1 => ⟨S512x512, .f32⟩
  | 2 => ⟨S32x2048, .i32⟩
  | 3 => ⟨S32x2048, .i32⟩
  | 4 => ⟨S32x2048, .i32⟩
  | 5 => ⟨S_, .i32⟩
  | 6 => ⟨S32, .i32⟩
  | 7 => ⟨S2048, .i32⟩
  | 8 => ⟨S1x2048, .i32⟩
  | 9 => ⟨S32x1, .i32⟩
  | 10 => ⟨S32x2048, .i32⟩
  | 11 => ⟨S32x2048, .i32⟩
  | 12 => ⟨S32x2048, .i1⟩
  | 13 => ⟨S32x2048, .f32⟩
  | 14 => ⟨S32x2048x1, .i32⟩
  | 15 => ⟨S_, .i32⟩
  | 16 => ⟨S32x2048x1, .i32⟩
  | 17 => ⟨S32x2048x1, .i1⟩
  | 18 => ⟨S_, .i32⟩
  | 19 => ⟨S32x2048x1, .i32⟩
  | 20 => ⟨S32x2048x1, .i32⟩
  | 21 => ⟨S32x2048x1, .i32⟩
  | 22 => ⟨S32x2048x1x1, .i32⟩
  | 23 => ⟨S1, .i32⟩
  | 24 => ⟨S_, .i32⟩
  | 25 => ⟨S32x2048x1x1, .i32⟩
  | 26 => ⟨S32x2048x1x1, .i1⟩
  | 27 => ⟨S1x1x1x1, .i32⟩
  | 28 => ⟨S32x2048x1x1, .i32⟩
  | 29 => ⟨S32x2048x1x1, .i1⟩
  | 30 => ⟨S32x2048x1x1, .i1⟩
  | 31 => ⟨S_, .i1⟩
  | 32 => ⟨S32x2048x1, .i1⟩
  | 33 => ⟨S32x2048x1, .f32⟩
  | 34 => ⟨S_, .f32⟩
  | 35 => ⟨S32x2048x1, .f32⟩
  | 36 => ⟨S32x2048x1, .f32⟩
  | 37 => ⟨S32x2048, .f32⟩
  | 38 => ⟨S32x2047, .i32⟩
  | 39 => ⟨S32x2047, .i32⟩
  | 40 => ⟨S_, .i32⟩
  | 41 => ⟨S32x2047, .i32⟩
  | 42 => ⟨S32x2047, .i1⟩
  | 43 => ⟨S_, .i32⟩
  | 44 => ⟨S32x2047, .i32⟩
  | 45 => ⟨S32x2047, .i32⟩
  | 46 => ⟨S32x2047, .i32⟩
  | 47 => ⟨S_, .i32⟩
  | 48 => ⟨S32x2047, .i32⟩
  | 49 => ⟨S32x2047, .i1⟩
  | 50 => ⟨S_, .i32⟩
  | 51 => ⟨S32x2047, .i32⟩
  | 52 => ⟨S32x2047, .i32⟩
  | 53 => ⟨S32x2047, .i32⟩
  | 54 => ⟨S32x2047x1, .i32⟩
  | 55 => ⟨S32x2047x1, .i32⟩
  | 56 => ⟨S32x2047x2, .i32⟩
  | 57 => ⟨S32x2047, .f32⟩
  | 58 => ⟨S2047, .i32⟩
  | 59 => ⟨S1x2047, .i32⟩
  | 60 => ⟨S32x1, .i32⟩
  | 61 => ⟨S32x2047, .i32⟩
  | 62 => ⟨S32x2047, .i32⟩
  | 63 => ⟨S32x2047, .i1⟩
  | 64 => ⟨S32x2047, .f32⟩
  | 65 => ⟨S32x2048, .f32⟩
  | 66 => ⟨S_, .f32⟩
  | 67 => ⟨S32, .f32⟩
  | 68 => ⟨S32x2047, .f32⟩
  | 69 => ⟨S_, .f32⟩
  | 70 => ⟨S32, .f32⟩
  | 71 => ⟨S32, .f32⟩
  | 72 => ⟨S_, .i32⟩
  | 73 => ⟨S32, .i32⟩
  | 74 => ⟨S2048, .i32⟩
  | 75 => ⟨S1x2048, .i32⟩
  | 76 => ⟨S32x1, .i32⟩
  | 77 => ⟨S32x2048, .i32⟩
  | 78 => ⟨S32x2048, .i32⟩
  | 79 => ⟨S32x2048, .i1⟩
  | 80 => ⟨S32x2048, .f32⟩
  | 81 => ⟨S32x2048x1, .i32⟩
  | 82 => ⟨S_, .i32⟩
  | 83 => ⟨S32x2048x1, .i32⟩
  | 84 => ⟨S32x2048x1, .i1⟩
  | 85 => ⟨S_, .i32⟩
  | 86 => ⟨S32x2048x1, .i32⟩
  | 87 => ⟨S32x2048x1, .i32⟩
  | 88 => ⟨S32x2048x1, .i32⟩
  | 89 => ⟨S32x2048x1x1, .i32⟩
  | 90 => ⟨S1, .i32⟩
  | 91 => ⟨S_, .i32⟩
  | 92 => ⟨S32x2048x1x1, .i32⟩
  | 93 => ⟨S32x2048x1x1, .i1⟩
  | 94 => ⟨S1x1x1x1, .i32⟩
  | 95 => ⟨S32x2048x1x1, .i32⟩
  | 96 => ⟨S32x2048x1x1, .i1⟩
  | 97 => ⟨S32x2048x1x1, .i1⟩
  | 98 => ⟨S_, .i1⟩
  | 99 => ⟨S32x2048x1, .i1⟩
  | 100 => ⟨S32x2048x1, .f32⟩
  | 101 => ⟨S_, .f32⟩
  | 102 => ⟨S32x2048x1, .f32⟩
  | 103 => ⟨S32x2048x1, .f32⟩
  | 104 => ⟨S32x2048, .f32⟩
  | 105 => ⟨S32x2047, .i32⟩
  | 106 => ⟨S32x2047, .i32⟩
  | 107 => ⟨S_, .i32⟩
  | 108 => ⟨S32x2047, .i32⟩
  | 109 => ⟨S32x2047, .i1⟩
  | 110 => ⟨S_, .i32⟩
  | 111 => ⟨S32x2047, .i32⟩
  | 112 => ⟨S32x2047, .i32⟩
  | 113 => ⟨S32x2047, .i32⟩
  | 114 => ⟨S_, .i32⟩
  | 115 => ⟨S32x2047, .i32⟩
  | 116 => ⟨S32x2047, .i1⟩
  | 117 => ⟨S_, .i32⟩
  | 118 => ⟨S32x2047, .i32⟩
  | 119 => ⟨S32x2047, .i32⟩
  | 120 => ⟨S32x2047, .i32⟩
  | 121 => ⟨S32x2047x1, .i32⟩
  | 122 => ⟨S32x2047x1, .i32⟩
  | 123 => ⟨S32x2047x2, .i32⟩
  | 124 => ⟨S32x2047, .f32⟩
  | 125 => ⟨S2047, .i32⟩
  | 126 => ⟨S1x2047, .i32⟩
  | 127 => ⟨S32x1, .i32⟩
  | _ => ⟨S32x2048x512, .f32⟩

abbrev hbmTy0_1 (i : Nat) : BufTy := match i % 128 with
  | 0 => ⟨S32x2047, .i32⟩
  | 1 => ⟨S32x2047, .i32⟩
  | 2 => ⟨S32x2047, .i1⟩
  | 3 => ⟨S32x2047, .f32⟩
  | 4 => ⟨S32x2048, .f32⟩
  | 5 => ⟨S_, .f32⟩
  | 6 => ⟨S32, .f32⟩
  | 7 => ⟨S32x2047, .f32⟩
  | 8 => ⟨S_, .f32⟩
  | 9 => ⟨S32, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S_, .f32⟩
  | _ => ⟨S32x2048x512, .f32⟩

abbrev hbmTy (i : Nat) : BufTy := match i / 128 with
  | 0 => hbmTy0_0 i
  | 1 => hbmTy0_1 i
  | _ => ⟨S32x2048x512, .f32⟩

abbrev bufTy : (tb : Table) → Fin (tcTables nBuf tb) → BufTy
  | .hbm, ⟨i, _⟩ => hbmTy i
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_0 : Ref sig .tc := ⟨.hbm, 40, rfl⟩
abbrev main_v13 : Ref sig .tc := ⟨.hbm, 41, rfl⟩
abbrev main_v14 : Ref sig .tc := ⟨.hbm, 42, rfl⟩
abbrev main_c_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst : Ref sig .tc := ⟨.hbm, 66, rfl⟩
abbrev main_v35 : Ref sig .tc := ⟨.hbm, 67, rfl⟩
abbrev main_v36 : Ref sig .tc := ⟨.hbm, 68, rfl⟩
abbrev main_cst_4 : Ref sig .tc := ⟨.hbm, 69, rfl⟩
abbrev main_v37 : Ref sig .tc := ⟨.hbm, 70, rfl⟩
abbrev main_v38 : Ref sig .tc := ⟨.hbm, 71, rfl⟩
abbrev main_c_5 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_cst : Ref sig .tc := ⟨.hbm, 101, rfl⟩
abbrev main_call1_v14 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_c_6 : Ref sig .tc := ⟨.hbm, 107, rfl⟩
abbrev main_v52 : Ref sig .tc := ⟨.hbm, 108, rfl⟩
abbrev main_v53 : Ref sig .tc := ⟨.hbm, 109, rfl⟩
abbrev main_c_7 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_c_8 : Ref sig .tc := ⟨.hbm, 114, rfl⟩
abbrev main_v57 : Ref sig .tc := ⟨.hbm, 115, rfl⟩
abbrev main_v58 : Ref sig .tc := ⟨.hbm, 116, rfl⟩
abbrev main_c_9 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_cst_10 : Ref sig .tc := ⟨.hbm, 133, rfl⟩
abbrev main_v74 : Ref sig .tc := ⟨.hbm, 134, rfl⟩
abbrev main_v75 : Ref sig .tc := ⟨.hbm, 135, rfl⟩
abbrev main_cst_11 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_12 : Ref sig .tc := ⟨.hbm, 140, rfl⟩
abbrev main_v79 : Ref sig .tc := ⟨.hbm, 141, rfl⟩
abbrev main_v80 : Ref sig .tc := ⟨.hbm, 142, rfl⟩
abbrev main_cst_13 : Ref sig .tc := ⟨.hbm, 143, rfl⟩
abbrev main_v81 : Ref sig .tc := ⟨.hbm, 144, rfl⟩

abbrev nD : Nat := 1
abbrev τ : Topo := Topo.v7x

variable {F : FTy → Type} [FloatOps F]

class Facts₀ : Prop where
  reducesTo_S32x2048_S32_d1 : S32x2048.ReducesTo [1] S32
  h_S_ : 0 < S_.numel
  bcast_S2048_S1x2048_1 : S2048.BroadcastsInDim S1x2048 (![1] : Fin 1 → Fin S1x2048.rank)
  bcast_S32_S32x1_0 : S32.BroadcastsInDim S32x1 (![0] : Fin 1 → Fin S32x1.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  shapeCasts_S32x2048x1_S32x2048x1x1 : S32x2048x1.ShapeCasts S32x2048x1x1
  bcast_S_S32x2048x1x1 : S_.BroadcastsInDim S32x2048x1x1 (![] : Fin 0 → Fin S32x2048x1x1.rank)
  bcast_S1_S1x1x1x1_3 : S1.BroadcastsInDim S1x1x1x1 (![3] : Fin 1 → Fin S1x1x1x1.rank)
  bcast_S1x1x1x1_S32x2048x1x1_0_1_2_3 : S1x1x1x1.BroadcastsInDim S32x2048x1x1 (![0, 1, 2, 3] : Fin 4 → Fin S32x2048x1x1.rank)
  reducesTo_S32x2048x1x1_S32x2048x1_d3 : S32x2048x1x1.ReducesTo [3] S32x2048x1
  shapeCasts_S32x2048x1_S32x2048 : S32x2048x1.ShapeCasts S32x2048
  slices_S32x2048_S32x2047_0_0 : S32x2048.Slices ![0, 0] S32x2047
  slices_S32x2048_S32x2047_0_1 : S32x2048.Slices ![0, 1] S32x2047
  bcast_S_S32x2047 : S_.BroadcastsInDim S32x2047 (![] : Fin 0 → Fin S32x2047.rank)
  bcast_S32x2047_S32x2047x1_0_1 : S32x2047.BroadcastsInDim S32x2047x1 (![0, 1] : Fin 2 → Fin S32x2047x1.rank)
  concatenates_S32x2047x1_S32x2047x1_S32x2047x2_d2 : Shape.Concatenates [S32x2047x1, S32x2047x1] S32x2047x2 2
  slices_S2048_S2047_1 : S2048.Slices ![1] S2047
  bcast_S2047_S1x2047_1 : S2047.BroadcastsInDim S1x2047 (![1] : Fin 1 → Fin S1x2047.rank)
  bcast_S1x2047_S32x2047_0_1 : S1x2047.BroadcastsInDim S32x2047 (![0, 1] : Fin 2 → Fin S32x2047.rank)
  bcast_S32x1_S32x2047_0_1 : S32x1.BroadcastsInDim S32x2047 (![0, 1] : Fin 2 → Fin S32x2047.rank)
  reducesTo_S32x2047_S32_d1 : S32x2047.ReducesTo [1] S32
  bcast_S_S32 : S_.BroadcastsInDim S32 (![] : Fin 0 → Fin S32.rank)
  reducesTo_S32_S_d0 : S32.ReducesTo [0] S_
  gather_S32x2048x512_S32x2048x1x1_S32x2048x1_n_2_01_01_2_3_111_wf : GatherDims.WF S32x2048x512 S32x2048x1x1 S32x2048x1 [] [2] [0, 1] [2] [0, 1] 3 ![1, 1, 1]
  gather_S512x512_S32x2047x2_S32x2047_n_01_n_n_01_2_11_wf : GatherDims.WF S512x512 S32x2047x2 S32x2047 [] [0, 1] [] [0, 1] [] 2 ![1, 1]

variable [Facts₀]

def gather_S32x2048x512_S32x2048x1x1_S32x2048x1_n_2_01_01_2_3_111 : GatherDims S32x2048x512 S32x2048x1x1 S32x2048x1 where
  offsetDims := []
  collapsedSliceDims := [2]
  operandBatchingDims := [0, 1]
  startIndicesBatchingDims := [0, 1]
  startIndexMap := [2]
  indexVectorDim := 3
  sliceSizes := ![1, 1, 1]
  wf := gather_S32x2048x512_S32x2048x1x1_S32x2048x1_n_2_01_01_2_3_111_wf
def gather_S512x512_S32x2047x2_S32x2047_n_01_n_n_01_2_11 : GatherDims S512x512 S32x2047x2 S32x2047 where
  offsetDims := []
  collapsedSliceDims := [0, 1]
  operandBatchingDims := []
  startIndicesBatchingDims := []
  startIndexMap := [0, 1]
  indexVectorDim := 2
  sliceSizes := ![1, 1]
  wf := gather_S512x512_S32x2047x2_S32x2047_n_01_n_n_01_2_11_wf

class Facts : Prop extends Facts₀ where

variable [Facts]
-- ==== Proof.KBody.lean ====
/-
  What one grid point's body adds to a row of the output block.

  The body holds an [8, 256, 512] block of unary potentials, two [8, 256] blocks of tag words (gold and
  predicted) and an [8, 256] block of validity weights. For each of its 8 rows and 256 positions it selects,
  by comparing the column number with the tag word, the potential in the predicted tag's column and the one in
  the gold tag's column, subtracts them column by column and sums over the 512 columns; it multiplies by the
  position's weight, sums over the 256 positions, and adds the result to what the row of the output block held.
-/
import proofs.«403473_j8581344658203_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A sum over the 256 positions of a row of an [8, 256] array. -/
theorem sum_positions (v : FVec Ideal S8x256 .f32) (hφ : FKind.Formats .f32)
    (hacc : (0x00000000#32 : BitVec 32) = FKind.add.neutral .f32 hφ) (r : Fin 8) :
    multiReduction .add [1] S8 v 0x00000000#32 reduces_S8x256_S8 hφ hacc (ix1 r) = ∑ k : Fin 256, v (ix2 r k) :=
  (Ideal.multiReduction_add_single v _ reduces_S8x256_S8 hφ hacc (ix1 r)).trans
    (Finset.sum_congr rfl fun k _ => congrArg v
      (funext fun a => Fin.ext (match a with | ⟨0, _⟩ => rfl | ⟨1, _⟩ => rfl)))

/-- A sum over the 512 columns at a row and position of an [8, 256, 512] array. -/
theorem sum_columns (v : FVec Ideal S8x256x512 .f32) (hφ : FKind.Formats .f32)
    (hacc : (0x00000000#32 : BitVec 32) = FKind.add.neutral .f32 hφ) (r : Fin 8) (k : Fin 256) :
    multiReduction .add [2] S8x256 v 0x00000000#32 reduces_S8x256x512_S8x256 hφ hacc (ix2 r k)
      = ∑ t : Fin 512, v (ix3 r k t) :=
  (Ideal.multiReduction_add_single v _ reduces_S8x256x512_S8x256 hφ hacc (ix2 r k)).trans
    (Finset.sum_congr rfl fun t _ => congrArg v
      (funext fun a => Fin.ext (match a with | ⟨0, _⟩ => rfl | ⟨1, _⟩ => rfl | ⟨2, _⟩ => rfl)))

/-- A block of tag words, given a trailing unit axis and repeated along the 512 columns, reads the word of its
    row and position in every column. -/
theorem word_at (x : Vec Ideal S8x256 .i32) (r : Fin 8) (k : Fin 256) (t : Fin 512) :
    broadcastTo S8x256x512 (shapeCast S8x256x1 (shapeCast S8x256 x shapeCasts_S8x256_S8x256) shapeCasts_S8x256_S8x256x1)
      broadcasts_S8x256x1_S8x256x512 (ix3 r k t) = x (ix2 r k) := by
  rw [broadcastTo_apply _ _ (ix3 r k t) (ix3 r k (0 : Fin 1)) (by
    intro a
    match a with
    | ⟨0, _⟩ => rfl
    | ⟨1, _⟩ => rfl
    | ⟨2, _⟩ => rfl)]
  rw [shapeCast_apply _ _ (ix3 r k (0 : Fin 1)) (ix2 r k) (by
    rw [Shape.rowMajor_val_two, Shape.rowMajor_val_three]
    show r.val * 256 + k.val = (r.val * 256 + k.val) * 1 + 0
    omega)]
  rw [shapeCast_self]

/-- The accumulating store's value at row `r`: the row's previous content plus the weighted sum over the
    block's positions of the column-wise difference of the two one-hot selections. -/
theorem pay2_apply (x0 : Vec Ideal S8x256x512 .f32) (x1 x2 : Vec Ideal S8x256 .i32) (x3 : Vec Ideal S8x256 .f32)
    (xo : Vec Ideal S8x1 .f32) (r : Fin 8) (z : Fin 1) :
    k0_pay2 (F := Ideal) x0 x1 x2 x3 xo (ix2 r z)
      = xo (ix2 r z) + ∑ k : Fin 256, (∑ t : Fin 512,
          (Scalar.select (IntOp.cmpi .eq (BitVec.ofNat 32 t.val) (x2 (ix2 r k))) (x0 (ix3 r k t)) (0 : EReal)
            - Scalar.select (IntOp.cmpi .eq (BitVec.ofNat 32 t.val) (x1 (ix2 r k))) (x0 (ix3 r k t)) (0 : EReal)))
          * x3 (ix2 r k) := by
  unfold k0_pay2
  dsimp only
  rw [addf_apply, shapeCast_self]
  congr 1
  rw [shapeCast_apply _ _ (ix2 r z) (ix1 r) (by
    rw [Shape.rowMajor_val_one, Shape.rowMajor_val_two]
    show r.val = r.val * 1 + z.val
    omega)]
  refine (sum_positions _ _ _ r).trans (Finset.sum_congr rfl fun k _ => ?_)
  refine congrArg₂ (· * ·) ?_ (congrFun (shapeCast_self x3 _) (ix2 r k))
  refine (sum_columns _ _ _ r k).trans (Finset.sum_congr rfl fun t _ => ?_)
  have e0 : (FloatOps.ofBits (F := Ideal) .f32 0x00000000#32 : EReal) = 0 := Ideal.ofBits_zero_f32
  have e1 : iota .tc S8x256x512 32 [2] iota_S8x256x512_d2_w32 (ix3 r k t) = BitVec.ofNat 32 t.val :=
    iota_single_apply _ _ _ _ _ _
  show Scalar.select (IntOp.cmpi .eq (iota .tc S8x256x512 32 [2] iota_S8x256x512_d2_w32 (ix3 r k t)) _) (x0 (ix3 r k t)) _
      - Scalar.select (IntOp.cmpi .eq (iota .tc S8x256x512 32 [2] iota_S8x256x512_d2_w32 (ix3 r k t)) _) (x0 (ix3 r k t)) _ = _
  rw [e1, word_at x2 r k t, word_at x1 r k t]
  show Scalar.select _ _ (FloatOps.ofBits (F := Ideal) .f32 0x00000000#32) - Scalar.select _ _ (FloatOps.ofBits (F := Ideal) .f32 0x00000000#32) = _
  rw [e0]

/-- The resetting store's value: zero in every row. -/
theorem pay1_apply (y : S8x1.Idx) : (k0_pay1 (F := Ideal)) y = 0 := by
  unfold k0_pay1
  exact Ideal.ofBits_zero_f32

end Cert.KernelIdeal.Body

end
-- ==== Proof.KAccum.lean ====
/-
  What the output block holds after each grid point.

  The grid is 4 row-blocks by 8 position-blocks, visited row-block by row-block; point t = 8 i + j handles
  row-block i and position-block j. At j = 0 the body first stores zeros in the [8, 1] output block and then
  accumulates into it; at j > 0 it accumulates into what the previous point left. So after point 8 i + j the
  block holds, in row r, the sum over the position-blocks 0..j of each block's weighted one-hot difference.
-/
import proofs.«403473_j8581344658203_3_alg».proof.Proof.Gen.KernelIdeal.Frame
import proofs.«403473_j8581344658203_3_alg».proof.Proof.KBody
import Idealize.ShloMosaic.Lib.Pipeline.Value
import Idealize.ShloMosaic.Lib.Tactic

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point with j > 0: the block ends at the accumulating store's value over the four input blocks and the
    block's previous contents. -/
theorem out_B (c : Dev nD) (i : grid0.Coords) (arg2 : Memref sig .tc .vmem S8x256x512 .f32) (harg2 : arg2.IsWhole)
    (arg3 : Memref sig .tc .vmem S8x256 .i32) (harg3 : arg3.IsWhole) (arg4 : Memref sig .tc .vmem S8x256 .i32) (harg4 : arg4.IsWhole)
    (arg5 : Memref sig .tc .vmem S8x256 .f32) (harg5 : arg5.IsWhole) (arg6 : Memref sig .tc .vmem S8x1 .f32) (harg6 : arg6.IsWhole)
    (hc0 : ¬cond0_0 i) (x0 : Vec F S8x256x512 .f32) (x1 x2 : Vec F S8x256 .i32) (x3 : Vec F S8x256 .f32) (xo4 : Vec F S8x1 .f32) :
    out0_B_4 c i arg2 harg2 arg3 harg3 arg4 harg4 arg5 harg5 arg6 harg6 hc0 x0 x1 x2 x3 xo4 = k0_pay2 x0 x1 x2 x3 xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_words
  rw [View.canon_unit_zero hz2]
  simp only [View.readAt_eq_ld, harg2.read_unread, harg3.read_unread, harg4.read_unread, harg5.read_unread, harg6.read_unread,
    View.ld_unit_zero (S := S8x256x512) hz3, View.ld_unit_zero (S := S8x256) hz2, View.ld_unit_zero (S := S8x1) hz2]

/-- A point with j = 0: the block ends at the accumulating store's value over the four input blocks and the
    zeros just stored. -/
theorem out_A (c : Dev nD) (i : grid0.Coords) (arg2 : Memref sig .tc .vmem S8x256x512 .f32) (harg2 : arg2.IsWhole)
    (arg3 : Memref sig .tc .vmem S8x256 .i32) (harg3 : arg3.IsWhole) (arg4 : Memref sig .tc .vmem S8x256 .i32) (harg4 : arg4.IsWhole)
    (arg5 : Memref sig .tc .vmem S8x256 .f32) (harg5 : arg5.IsWhole) (arg6 : Memref sig .tc .vmem S8x1 .f32) (harg6 : arg6.IsWhole)
    (hc0 : cond0_0 i) (x0 : Vec F S8x256x512 .f32) (x1 x2 : Vec F S8x256 .i32) (x3 : Vec F S8x256 .f32) :
    out0_A_4 c i arg2 harg2 arg3 harg3 arg4 harg4 arg5 harg5 arg6 harg6 hc0 x0 x1 x2 x3 = k0_pay2 x0 x1 x2 x3 (k0_pay1 (F := F)) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg4.read_unread, harg5.read_unread,
    View.ld_unit_zero (S := S8x256x512) hz3, View.ld_unit_zero (S := S8x256) hz2, View.ld_unit_zero (S := S8x1) hz2,
    View.readCov_unit_zero (S := S8x1) _ hz2]

/-! ## The running sum, at the ideal instance -/

section AtIdeal

variable (m : (ℓ : Loc nD τ sig) → Buf (Elt Ideal) ℓ)

/-- The four input blocks at point `t`, at their literal types: the unary potentials, the gold tags, the
    predicted tags and the validity weights. -/
abbrev ublk (c : Dev nD) (t : Fin cfg0.N) : Vec Ideal S8x256x512 .f32 := iblk m c 0 t
abbrev gblk (c : Dev nD) (t : Fin cfg0.N) : Vec Ideal S8x256 .i32 := iblk m c 1 t
abbrev pblk (c : Dev nD) (t : Fin cfg0.N) : Vec Ideal S8x256 .i32 := iblk m c 2 t
abbrev wblk (c : Dev nD) (t : Fin cfg0.N) : Vec Ideal S8x256 .f32 := iblk m c 3 t

/-- What point `t` adds to row `r` of the output block: over the block's 256 positions, the difference of the
    predicted and the gold one-hot selections of the position's 512 potentials, times the position's weight. -/
def term (c : Dev nD) (t : Fin cfg0.N) (r : Fin 8) : EReal :=
  ∑ k : Fin 256, (∑ tt : Fin 512,
      (Scalar.select (IntOp.cmpi .eq (BitVec.ofNat 32 tt.val) (pblk m c t (ix2 r k))) (ublk m c t (ix3 r k tt)) (0 : EReal)
        - Scalar.select (IntOp.cmpi .eq (BitVec.ofNat 32 tt.val) (gblk m c t (ix2 r k))) (ublk m c t (ix3 r k tt)) (0 : EReal)))
      * wblk m c t (ix2 r k)

/-- The same by the point's number, zero past the grid. -/
def termN (c : Dev nD) (n : ℕ) (r : Fin 8) : EReal := if h : n < cfg0.N then term m c ⟨n, h⟩ r else 0

theorem termN_of_lt (c : Dev nD) (n : ℕ) (h : n < cfg0.N) (r : Fin 8) : termN m c n r = term m c ⟨n, h⟩ r := dif_pos h

/-- After point `n` row `r` of the output block holds the contributions of the points of `n`'s row-block up to
    `n`: those numbered `n - n % 8` to `n`. By recursion on the point: a point with `n % 8 = 0` starts from the
    zeros it stores, any other adds to what the point before left. -/
theorem outsAt_eq (c : Dev nD) : ∀ (n : ℕ) (h : n < cfg0.N) (r : Fin 8) (z : Fin 1),
    outsAt0 m c n h (ix2 r z) = ∑ j ∈ Finset.range (n % 8 + 1), termN m c (n - n % 8 + j) r
  | 0, h, r, z => by
    rw [outsAt0_A m c ⟨0, h⟩ rfl, out_A]
    refine (Body.pay2_apply (ublk m c ⟨0, h⟩) (gblk m c ⟨0, h⟩) (pblk m c ⟨0, h⟩) (wblk m c ⟨0, h⟩)
      (k0_pay1 (F := Ideal)) r z).trans ?_
    rw [Body.pay1_apply, zero_add]
    show term m c ⟨0, h⟩ r = ∑ j ∈ Finset.range 1, termN m c (0 + j) r
    rw [Finset.sum_range_one]
    exact (termN_of_lt m c 0 h r).symm
  | n + 1, h, r, z => by
    have hN : cfg0.N = 32 := N_0
    by_cases h0 : (n + 1) % 8 = 0
    · rw [outsAt0_A m c ⟨n + 1, h⟩ h0, out_A]
      refine (Body.pay2_apply (ublk m c ⟨n + 1, h⟩) (gblk m c ⟨n + 1, h⟩) (pblk m c ⟨n + 1, h⟩) (wblk m c ⟨n + 1, h⟩)
        (k0_pay1 (F := Ideal)) r z).trans ?_
      rw [Body.pay1_apply, zero_add, h0, Finset.sum_range_one]
      show term m c ⟨n + 1, h⟩ r = termN m c (n + 1 - 0 + 0) r
      exact (termN_of_lt m c (n + 1) h r).symm
    · have hB : ¬(⟨n + 1, h⟩ : Fin cfg0.N).val % 8 = 0 := h0
      rw [outsAt0_B m c ⟨n + 1, h⟩ hB, out_B]
      refine (Body.pay2_apply (ublk m c ⟨n + 1, h⟩) (gblk m c ⟨n + 1, h⟩) (pblk m c ⟨n + 1, h⟩) (wblk m c ⟨n + 1, h⟩)
        (outsAt0 m c n (Nat.lt_of_succ_lt h)) r z).trans ?_
      show outsAt0 m c n (Nat.lt_of_succ_lt h) (ix2 r z) + term m c ⟨n + 1, h⟩ r = _
      rw [outsAt_eq c n (Nat.lt_of_succ_lt h) r z]
      have e1 : (n + 1) % 8 = n % 8 + 1 := by omega
      have e2 : n + 1 - (n % 8 + 1) = n - n % 8 := by omega
      have e3 : n - n % 8 + (n % 8 + 1) = n + 1 := by omega
      rw [e1, e2, Finset.sum_range_succ (fun j => termN m c (n - n % 8 + j) r) (n % 8 + 1), e3,
        termN_of_lt m c (n + 1) h r]

end AtIdeal

end Cert.KernelIdeal.Accum

end
-- ==== Proof.KArray.lean ====
/-
  From blocks to the whole output array.

  Point t = 8 i + j stages block (i, j) of each input: rows 8 i .. 8 i + 7, positions 256 j .. 256 j + 255.
  Its output block is block i of the [32, 1] result, written back after the last position-block (j = 7).
  So row b of the result ends holding the sum, over the eight position-blocks j and the 256 positions k of
  each, of the one-hot difference of the potentials at (b, 256 j + k) times the weight there.
-/
import proofs.«403473_j8581344658203_3_alg».proof.Proof.KAccum

noncomputable section

open scoped BigOperators

namespace Cert.KernelIdeal.Arr

open Cert.KernelIdeal Cert.KernelIdeal.Gen Cert.KernelIdeal.Accum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The arrays the region finds, at their literal types: the potentials, the gold and the predicted tags as the
    host's clamp left them, and the validity weights. -/
abbrev UA (c : Dev nD) : Vec Ideal S32x2048x512 .f32 := V m c main_arg0
abbrev GA (c : Dev nD) : Vec Ideal S32x2048 .i32 := V m c main_v0
abbrev PA (c : Dev nD) : Vec Ideal S32x2048 .i32 := V m c main_v1
abbrev WA (c : Dev nD) : Vec Ideal S32x2048 .f32 := V m c main_v9

/-- The printed index maps over the grid: point t is at row-block t / 8 and position-block t % 8. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = t.val / 8 ∧ win0_1.index t (1 : Fin 2) = t.val % 8
    ∧ win0_2.index t (0 : Fin 2) = t.val / 8 ∧ win0_2.index t (1 : Fin 2) = t.val % 8
    ∧ win0_3.index t (0 : Fin 2) = t.val / 8 ∧ win0_3.index t (1 : Fin 2) = t.val % 8
    ∧ win0_4.index t (0 : Fin 2) = t.val / 8 ∧ win0_4.index t (1 : Fin 2) = 0 :=
  (by decide +kernel : ∀ t : Fin grid0.N, _)

theorem lt32 (t : Fin cfg0.N) : t.val < 32 := lt_of_lt_of_eq t.isLt (show cfg0.N = 32 from N_0)

/-- The row of the arrays that row `r` of point `t`'s blocks is. -/
def rowOf (t : Fin cfg0.N) (r : Fin 8) : Fin 32 := ⟨8 * (t.val / 8) + r.val, by have := lt32 t; have := r.isLt; omega⟩
/-- The position of the arrays that position `k` of point `t`'s blocks is. -/
def posOf (t : Fin cfg0.N) (k : Fin 256) : Fin 2048 := ⟨256 * (t.val % 8) + k.val, by have := k.isLt; omega⟩

theorem ublk_apply (c : Dev nD) (t : Fin cfg0.N) (r : Fin 8) (k : Fin 256) (tt : Fin 512) :
    ublk m c t (ix3 r k tt) = UA m c (ix3 (rowOf t r) (posOf t k) tt) := by
  obtain ⟨e0, e1, e2, -⟩ := idx_facts t
  show V m c main_arg0 (((cfg0.win 0).blk t).view.emb (ix3 r k tt)) = V m c main_arg0 _
  refine congrArg _ (funext fun a => Fin.ext ?_)
  match a with
  | ⟨0, _⟩ => show win0_0.index t (0 : Fin 3) * 8 + 1 * r.val = 8 * (t.val / 8) + r.val; rw [e0]; omega
  | ⟨1, _⟩ => show win0_0.index t (1 : Fin 3) * 256 + 1 * k.val = 256 * (t.val % 8) + k.val; rw [e1]; omega
  | ⟨2, _⟩ => show win0_0.index t (2 : Fin 3) * 512 + 1 * tt.val = tt.val; rw [e2]; omega

theorem gblk_apply (c : Dev nD) (t : Fin cfg0.N) (r : Fin 8) (k : Fin 256) :
    gblk m c t (ix2 r k) = GA m c (ix2 (rowOf t r) (posOf t k)) := by
  obtain ⟨-, -, -, e0, e1, -⟩ := idx_facts t
  show V m c main_v0 (((cfg0.win 1).blk t).view.emb (ix2 r k)) = V m c main_v0 _
  refine congrArg _ (funext fun a => Fin.ext ?_)
  match a with
  | ⟨0, _⟩ => show win0_1.index t (0 : Fin 2) * 8 + 1 * r.val = 8 * (t.val / 8) + r.val; rw [e0]; omega
  | ⟨1, _⟩ => show win0_1.index t (1 : Fin 2) * 256 + 1 * k.val = 256 * (t.val % 8) + k.val; rw [e1]; omega

theorem pblk_apply (c : Dev nD) (t : Fin cfg0.N) (r : Fin 8) (k : Fin 256) :
    pblk m c t (ix2 r k) = PA m c (ix2 (rowOf t r) (posOf t k)) := by
  obtain ⟨-, -, -, -, -, e0, e1, -⟩ := idx_facts t
  show V m c main_v1 (((cfg0.win 2).blk t).view.emb (ix2 r k)) = V m c main_v1 _
  refine congrArg _ (funext fun a => Fin.ext ?_)
  match a with
  | ⟨0, _⟩ => show win0_2.index t (0 : Fin 2) * 8 + 1 * r.val = 8 * (t.val / 8) + r.val; rw [e0]; omega
  | ⟨1, _⟩ => show win0_2.index t (1 : Fin 2) * 256 + 1 * k.val = 256 * (t.val % 8) + k.val; rw [e1]; omega

theorem wblk_apply (c : Dev nD) (t : Fin cfg0.N) (r : Fin 8) (k : Fin 256) :
    wblk m c t (ix2 r k) = WA m c (ix2 (rowOf t r) (posOf t k)) := by
  obtain ⟨-, -, -, -, -, -, -, e0, e1, -⟩ := idx_facts t
  show V m c main_v9 (((cfg0.win 3).blk t).view.emb (ix2 r k)) = V m c main_v9 _
  refine congrArg _ (funext fun a => Fin.ext ?_)
  match a with
  | ⟨0, _⟩ => show win0_3.index t (0 : Fin 2) * 8 + 1 * r.val = 8 * (t.val / 8) + r.val; rw [e0]; omega
  | ⟨1, _⟩ => show win0_3.index t (1 : Fin 2) * 256 + 1 * k.val = 256 * (t.val % 8) + k.val; rw [e1]; omega

/-- At batch row `b`, position `s`: the predicted tag's one-hot selection of the 512 potentials minus the gold
    tag's, summed column by column. -/
def hotdiff (c : Dev nD) (b : Fin 32) (s : Fin 2048) : EReal :=
  ∑ tt : Fin 512,
    (Scalar.select (IntOp.cmpi .eq (BitVec.ofNat 32 tt.val) (PA m c (ix2 b s))) (UA m c (ix3 b s tt)) (0 : EReal)
      - Scalar.select (IntOp.cmpi .eq (BitVec.ofNat 32 tt.val) (GA m c (ix2 b s))) (UA m c (ix3 b s tt)) (0 : EReal))

/-- One point's contribution to a row, over the whole arrays. -/
theorem term_eq (c : Dev nD) (t : Fin cfg0.N) (r : Fin 8) :
    term m c t r = ∑ k : Fin 256, hotdiff m c (rowOf t r) (posOf t k) * WA m c (ix2 (rowOf t r) (posOf t k)) := by
  unfold term hotdiff
  refine Finset.sum_congr rfl fun k _ => ?_
  rw [wblk_apply m c t r k, pblk_apply m c t r k, gblk_apply m c t r k]
  refine congrArg₂ (· * ·) (Finset.sum_congr rfl fun tt _ => ?_) rfl
  rw [ublk_apply m c t r k tt]

/-- Row `b` of the result: the eight position-blocks' contributions. -/
def rowSum (c : Dev nD) (b : Fin 32) : EReal :=
  ∑ j : Fin 8, ∑ k : Fin 256, hotdiff m c b (finProdFinEquiv (j, k)) * WA m c (ix2 b (finProdFinEquiv (j, k)))

/-- The [32, 1] result array. -/
def Gout (c : Dev nD) : Vec Ideal S32x1 .f32 := fun y => rowSum m c ⟨(y 0).val, idx2_lt0 y⟩

/-- The contribution of the point numbered `t - 7 + j`, for a last point `t` of a row-block (`t % 8 = 7`) and
    `j < 8`: position-block `j` of `t`'s row-block. -/
theorem termN_block (c : Dev nD) (t : Fin cfg0.N) (h7 : t.val % 8 = 7) (r : Fin 8) (j : Fin 8) :
    termN m c (t.val - 7 + j.val) r
      = ∑ k : Fin 256, hotdiff m c (rowOf t r) (finProdFinEquiv (j, k)) * WA m c (ix2 (rowOf t r) (finProdFinEquiv (j, k))) := by
  have ht := lt32 t
  have hj := j.isLt
  have hlt : t.val - 7 + j.val < cfg0.N := by have hN : cfg0.N = 32 := N_0; omega
  rw [termN_of_lt m c _ hlt r, term_eq]
  have hrow : rowOf ⟨t.val - 7 + j.val, hlt⟩ r = rowOf t r := Fin.ext (by
    show 8 * ((t.val - 7 + j.val) / 8) + r.val = 8 * (t.val / 8) + r.val
    omega)
  have hpos : ∀ k : Fin 256, posOf ⟨t.val - 7 + j.val, hlt⟩ k = finProdFinEquiv (j, k) := fun k => Fin.ext (by
    show 256 * ((t.val - 7 + j.val) % 8) + k.val = k.val + 256 * j.val
    have : (t.val - 7 + j.val) % 8 = j.val := by omega
    rw [this]; omega)
  refine Finset.sum_congr rfl fun k _ => ?_
  rw [hrow, hpos k]

/-- What a last point of a row-block writes back is its block of the result array. -/
theorem flushed_eq (c : Dev nD) (t : Fin cfg0.N) (hf : (cfg0.win 4).flush t = true) :
    (dats m 0 c).flushed 4 t = ((cfg0.win 4).blk t).view.read (Elt Ideal) (Gout m c) := by
  have h7 : t.val % 8 = 7 := (flush0_4 t).mp hf
  obtain ⟨-, -, -, -, -, -, -, -, -, e0, e1⟩ := idx_facts t
  show (cfg0.win 4).cut (grid0.coords t) ((dats m 0 c).after 4 t) = _
  rw [after0_4]
  funext y
  obtain ⟨r, z, rfl⟩ : ∃ (r : Fin 8) (z : Fin 1), (y : S8x1.Idx) = ix2 r z := ⟨y 0, y 1, eq_ix2 (n0 := 8) (n1 := 1) y⟩
  show outsAt0 m c t.val t.isLt (ix2 r z) = Gout m c (((cfg0.win 4).blk t).view.emb (ix2 r z))
  rw [outsAt_eq m c t.val t.isLt r z, h7]
  have hb : (⟨((((cfg0.win 4).blk t).view.emb (ix2 r z)) 0).val, idx2_lt0 _⟩ : Fin 32) = rowOf t r := Fin.ext (by
    show win0_4.index t (0 : Fin 2) * 8 + 1 * r.val = 8 * (t.val / 8) + r.val
    rw [e0]; omega)
  show _ = rowSum m c ⟨((((cfg0.win 4).blk t).view.emb (ix2 r z)) 0).val, idx2_lt0 _⟩
  rw [hb]
  unfold rowSum
  rw [Finset.sum_range (fun j => termN m c (t.val - 7 + j) r)]
  exact Finset.sum_congr rfl fun j _ => termN_block m c t h7 r j

/-- An index of the result is in point `t`'s block iff each coordinate is in the block's range on its axis. -/
theorem mem_blk (t : Fin cfg0.N) (i : S32x1.Idx) :
    i ∈ ((cfg0.win 4).blk t).view.set ↔
      ∀ a : Fin 2, win0_4.index t a * S8x1.size a ≤ (i a).val ∧ (i a).val < win0_4.index t a * S8x1.size a + S8x1.size a := by
  show i ∈ ((View.whole main_v17).slice (win0_4.rect t)).set ↔ _
  rw [View.set_slice_whole, Rect.mem_set_unit]
  exact Iff.rfl

/-- Every row of the result is in the block of the last point of its row-block. -/
theorem cover (i : S32x1.Idx) : ∃ t : Fin cfg0.N, (cfg0.win 4).flush t = true ∧ i ∈ ((cfg0.win 4).blk t).view.set := by
  have hi0 : (i 0).val < 32 := (i 0).isLt
  have hi1 : (i 1).val < 1 := (i 1).isLt
  have hlt : 8 * ((i 0).val / 8) + 7 < cfg0.N := by have hN : cfg0.N = 32 := N_0; omega
  refine ⟨⟨8 * ((i 0).val / 8) + 7, hlt⟩, (flush0_4 _).mpr (by show (8 * ((i 0).val / 8) + 7) % 8 = 7; omega), ?_⟩
  obtain ⟨-, -, -, -, -, -, -, -, -, e0, e1⟩ := idx_facts ⟨8 * ((i 0).val / 8) + 7, hlt⟩
  have e0' : win0_4.index ⟨8 * ((i 0).val / 8) + 7, hlt⟩ (0 : Fin 2) = (i 0).val / 8 := by
    rw [e0]; show (8 * ((i 0).val / 8) + 7) / 8 = (i 0).val / 8; omega
  rw [mem_blk]
  intro a
  match a with
  | ⟨0, _⟩ =>
    show win0_4.index ⟨8 * ((i 0).val / 8) + 7, hlt⟩ (0 : Fin 2) * 8 ≤ (i 0).val
      ∧ (i 0).val < win0_4.index ⟨8 * ((i 0).val / 8) + 7, hlt⟩ (0 : Fin 2) * 8 + 8
    rw [e0']; omega
  | ⟨1, _⟩ =>
    show win0_4.index ⟨8 * ((i 0).val / 8) + 7, hlt⟩ (1 : Fin 2) * 1 ≤ (i 1).val
      ∧ (i 1).val < win0_4.index ⟨8 * ((i 0).val / 8) + 7, hlt⟩ (1 : Fin 2) * 1 + 1
    rw [e1]; omega

/-- The result array after the run. -/
theorem final_out (c : Dev nD) : (dats m 0 c).arrAt 4 cfg0.N = Gout m c :=
  (dats m 0 c).arrAt_eq_of_cover 4 (Gout m c) (fun t hf => flushed_eq m c t hf) (cover)

end Cert.KernelIdeal.Arr

end
-- ==== Proof.KHost.lean ====
/-
  The host-side quantities of the kernel program, as closed terms of the arguments.

  Before the region the host clamps each tag array into [0, 511], counts each row's mask to a length, and
  forms the validity weights: position s of a row is valid (weight 1, else 0) when s is below the row's
  length; the pair (s, s + 1) when s + 1 is. After the region it gathers the transition potentials along a
  tagging, each tag first passed through the wrap of negative indices.
-/
import proofs.«403473_j8581344658203_3_alg».proof.Proof.Gen.KernelIdeal
import Idealize.ShloMosaic.PureOps.Ideal

noncomputable section

namespace Cert.KernelIdeal.Host

open Cert.KernelIdeal Cert.KernelIdeal.Gen Idealize.ShloMosaic

/-- The clamp of a tag array into [0, 511]: the signed maximum with 0, then the signed minimum with 511. -/
def clampArr (x : IVec S32x2048 32) : IVec S32x2048 32 :=
  minsi (broadcastInDim S32x2048 ![] bcast_S_S32x2048 (id (constantI S_ 32 511#32)))
    (maxsi (broadcastInDim S32x2048 ![] bcast_S_S32x2048 (id (constantI S_ 32 0#32))) x)

/-- Each row's length: the sum of its mask words. -/
def lenArr (mk : IVec S32x2048 32) : IVec S32 32 :=
  Host.reduce IntOp.addi mk (constantI S_ 32 0#32) reducesTo_S32x2048_S32_d1 h_S_

/-- The positions' validity weights: 1 where the position number is below the row's length, else 0. -/
def validArr (mk : IVec S32x2048 32) : FVec Ideal S32x2048 .f32 :=
  uitofp .f32 (cmpi .slt
    (broadcastInDim S32x2048 ![0, 1] bcast_S1x2048_S32x2048_0_1
      (broadcastInDim S1x2048 ![1] bcast_S2048_S1x2048_1 (iotaInDim S2048 32 0)))
    (broadcastInDim S32x2048 ![0, 1] bcast_S32x1_S32x2048_0_1
      (broadcastInDim S32x1 ![0] bcast_S32_S32x1_0 (lenArr mk))))

/-- The adjacent pairs' validity weights: pair (s, s + 1) has weight 1 where s + 1 is below the row's length. -/
def validPairArr (mk : IVec S32x2048 32) : FVec Ideal S32x2047 .f32 :=
  uitofp .f32 (cmpi .slt
    (broadcastInDim S32x2047 ![0, 1] bcast_S1x2047_S32x2047_0_1
      (broadcastInDim S1x2047 ![1] bcast_S2047_S1x2047_1
        (extractStridedSlice S2047 ![1] (iotaInDim S2048 32 0) slices_S2048_S2047_1)))
    (broadcastInDim S32x2047 ![0, 1] bcast_S32x1_S32x2047_0_1
      (broadcastInDim S32x1 ![0] bcast_S32_S32x1_0 (lenArr mk))))

/-- The wrap of negative indices: a word below zero has 512 added. -/
def wrapIdx (y : IVec S32x2047 32) : IVec S32x2047 32 :=
  select (cmpi .slt y (broadcastInDim S32x2047 ![] bcast_S_S32x2047 (constantI S_ 32 0#32)))
    (addi y (broadcastInDim S32x2047 ![] bcast_S_S32x2047 (constantI S_ 32 512#32))) y

/-- The index pairs a tagging gives the gather: per row and adjacent pair, (the earlier tag, the later tag). -/
def pairIdx (x : IVec S32x2048 32) : IVec S32x2047x2 32 :=
  concatenate S32x2047x2 2
    [⟨S32x2047x1, broadcastInDim S32x2047x1 ![0, 1] bcast_S32x2047_S32x2047x1_0_1
        (wrapIdx (extractStridedSlice S32x2047 ![0, 0] x slices_S32x2048_S32x2047_0_0))⟩,
     ⟨S32x2047x1, broadcastInDim S32x2047x1 ![0, 1] bcast_S32x2047_S32x2047x1_0_1
        (wrapIdx (extractStridedSlice S32x2047 ![0, 1] x slices_S32x2048_S32x2047_0_1))⟩]
    concatenates_S32x2047x1_S32x2047x1_S32x2047x2_d2

/-- The transition potentials along a tagging: the table gathered at the tagging's index pairs. -/
def trans (Bn : FVec Ideal S512x512 .f32) (x : IVec S32x2048 32) : FVec Ideal S32x2047 .f32 :=
  Host.gather gather_S512x512_S32x2047x2_S32x2047_n_01_n_n_01_2_11 Bn (pairIdx x)

end Cert.KernelIdeal.Host

end
-- ==== Proof.KTailFn.lean ====
/-
  The host operations after the region as one function, read at its one index.

  The tail drops the result array's unit axis, gathers the transition potentials along the predicted and
  along the gold tagging, subtracts them pair by pair, multiplies by the pairs' weights and sums over each
  row's pairs (a host sum: its initial value zero, plus the sum); it adds the two row vectors, clamps each
  row at zero and sums the 32 rows (again from zero).
-/
import proofs.«403473_j8581344658203_3_alg».proof.Proof.KHost
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws

noncomputable section

open scoped BigOperators

namespace Cert.KernelIdeal.TailFn

open Cert.KernelIdeal Cert.KernelIdeal.Gen Cert.KernelIdeal.Host
open Idealize.ShloMosaic Idealize.ShloMosaic.ValueIdx

/-- The tail as one function of the five arrays it reads: the result array, the gold and the predicted tags,
    the transition table and the pairs' weights. -/
def tailFn (o : FVec Ideal S32x1 .f32) (g p : IVec S32x2048 32) (Bn : FVec Ideal S512x512 .f32)
    (wt : FVec Ideal S32x2047 .f32) : FVec Ideal S_ .f32 :=
  Host.reduceAdd (F := Ideal)
    (maximumf
      (addf (shapeCast S32 o shapeCasts_S32x1_S32)
        (Host.reduceAdd (F := Ideal) (mulf (subf (Cert.KernelIdeal.Host.trans Bn p) (Cert.KernelIdeal.Host.trans Bn g)) wt)
          (constant (F := Ideal) S_ .f32 0x00000000#32) reducesTo_S32x2047_S32_d1 h_S_))
      (broadcastInDim S32 ![] bcast_S_S32 (constant (F := Ideal) S_ .f32 0x00000000#32)))
    (constant (F := Ideal) S_ .f32 0x00000000#32) reducesTo_S32_S_d0 h_S_

/-- A host sum over the 32 rows of a [32] array, read at the scalar's one index: the initial value plus the sum.
    The result has rank zero, so the sum is over every index of the operand; a rank-1 index is its coordinate. -/
theorem sum_rows (v : FVec Ideal S32 .f32) (init : FVec Ideal S_ .f32) (i : S_.Idx) :
    Host.reduceAdd (F := Ideal) v init reducesTo_S32_S_d0 h_S_ i
      = init (Shape.Idx.first h_S_) + ∑ b : Fin 32, v (ix1 b) :=
  (hostReduceAdd_apply v init reducesTo_S32_S_d0 h_S_ i).trans
    ((Ideal.hostReduceAdd_total reducesTo_S32_S_d0 (fun b => b.elim0) v _ i).trans
      (congrArg (init (Shape.Idx.first h_S_) + ·) (Equiv.sum_comp (idxEquiv1 (n := 32)).symm v).symm))

/-- A host sum over the 2047 pairs of a row of a [32, 2047] array: the initial value plus the sum. -/
theorem sum_pairs (v : FVec Ideal S32x2047 .f32) (init : FVec Ideal S_ .f32) (b : Fin 32) :
    Host.reduceAdd (F := Ideal) v init reducesTo_S32x2047_S32_d1 h_S_ (ix1 b)
      = init (Shape.Idx.first h_S_) + ∑ k : Fin 2047, v (ix2 b k) :=
  (hostReduceAdd_apply v init reducesTo_S32x2047_S32_d1 h_S_ (ix1 b)).trans
    ((Ideal.hostReduceAdd_single reducesTo_S32x2047_S32_d1 (by decide : S32x2047.Reduces [1] S32) v _ (ix1 b)).trans
      (congrArg (init (Shape.Idx.first h_S_) + ·) (Finset.sum_congr rfl fun k _ => congrArg v
        (funext fun a => Fin.ext (match a with | ⟨0, _⟩ => rfl | ⟨1, _⟩ => rfl)))))

/-- The zero splat at any index is the extended real 0. -/
theorem zero_splat (j : S_.Idx) : constant (F := Ideal) S_ .f32 0x00000000#32 j = 0 :=
  (constant_apply _ j).trans Ideal.ofBits_zero_f32

/-- At its one index the tail is: zero plus the sum over the 32 rows of the row's value clamped at zero, a
    row's value being its entry of the result array plus (zero plus) the sum over the row's 2047 pairs of the
    difference of the two gathered potentials times the pair's weight. -/
theorem tailFn_apply (o : FVec Ideal S32x1 .f32) (g p : IVec S32x2048 32) (Bn : FVec Ideal S512x512 .f32)
    (wt : FVec Ideal S32x2047 .f32) (i : S_.Idx) :
    tailFn o g p Bn wt i
      = 0 + ∑ b : Fin 32, max
          (o (ix2 b (0 : Fin 1))
            + (0 + ∑ k : Fin 2047,
                (Cert.KernelIdeal.Host.trans Bn p (ix2 b k) - Cert.KernelIdeal.Host.trans Bn g (ix2 b k)) * wt (ix2 b k)))
          (0 : EReal) := by
  unfold tailFn
  -- the outer sum over the 32 rows, from the zero splat
  refine (sum_rows _ _ i).trans ?_
  refine congrArg₂ (· + ·) (zero_splat _) (Finset.sum_congr rfl fun b _ => ?_)
  -- a row: the maximum of (result entry + pairs' sum) and the broadcast zero
  rw [maximumf_apply, addf_apply]
  refine congrArg₂ max (congrArg₂ (· + ·) ?_ ?_) ?_
  · -- dropping the unit axis: row b of the [32] view is entry (b, 0) of the [32, 1] array
    exact shapeCast_apply o shapeCasts_S32x1_S32 (ix1 b) (ix2 b (0 : Fin 1)) (by
      rw [Shape.rowMajor_val_one, Shape.rowMajor_val_two]
      show b.val * 1 + 0 = b.val
      omega)
  · -- the inner sum over the row's 2047 pairs, from the zero splat
    refine (sum_pairs _ _ b).trans ?_
    exact congrArg₂ (· + ·) (zero_splat _) (Finset.sum_congr rfl fun k _ => rfl)
  · -- the broadcast zero
    exact (broadcastInDim_scalar_apply bcast_S_S32 _ (ix1 b)).trans (zero_splat _)

end Cert.KernelIdeal.TailFn

end
-- ==== Proof.KTail.lean ====
/-
  The host operations after the region, and the kernel program's result.

  After the region the program drops the result array's unit axis, gathers the transition potentials along
  the predicted and along the gold tagging (both through the wrap of negative indices), subtracts them pair
  by pair, multiplies by the pairs' weights and sums over the pairs of each row; it adds the two row vectors,
  clamps at zero and sums over the 32 rows.
-/
import proofs.«403473_j8581344658203_3_alg».proof.Proof.KArray
import proofs.«403473_j8581344658203_3_alg».proof.Proof.KHost
import proofs.«403473_j8581344658203_3_alg».proof.Proof.KTailFn
import Idealize.ShloMosaic.Lib.StableHlo.Run
import Idealize.ShloMosaic.Lib.IdealHost

noncomputable section

open scoped BigOperators

namespace Cert.KernelIdeal.Tail

open Cert.KernelIdeal Cert.KernelIdeal.Gen Cert.KernelIdeal.Accum Cert.KernelIdeal.Arr Cert.KernelIdeal.Host Cert.KernelIdeal.TailFn
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ)

/-- The transition table and the pairs' weights as the region finds them. -/
abbrev BA (c : Dev nD) : FVec Ideal S512x512 .f32 := V m c main_arg1
abbrev WT (c : Dev nD) : FVec Ideal S32x2047 .f32 := V m c main_v16

/-- Joining two index columns depends only on the columns. -/
@[congr] theorem pair_congr {a a' b b' : IVec S32x2047x1 32} (ha : a = a') (hb : b = b') :
    concatenate S32x2047x2 2 [⟨S32x2047x1, a⟩, ⟨S32x2047x1, b⟩] concatenates_S32x2047x1_S32x2047x1_S32x2047x2_d2
      = concatenate S32x2047x2 2 [⟨S32x2047x1, a'⟩, ⟨S32x2047x1, b'⟩] concatenates_S32x2047x1_S32x2047x1_S32x2047x2_d2 := by
  subst ha; subst hb; rfl

set_option maxHeartbeats 8000000 in
/-- From any contents of the buffers, the tail leaves in the returned buffer that function of the five arrays. -/
theorem tail_generic (W : Valuation τ sig (Elt Ideal)) :
    StableHlo.after hostOps1 W (Proc.devRef .tc main_v57)
      = tailFn (W (Proc.devRef .tc main_v17)) (W (Proc.devRef .tc main_v0)) (W (Proc.devRef .tc main_v1))
          (W (Proc.devRef .tc main_arg1)) (W (Proc.devRef .tc main_v16)) := by
  simp only [hostOps1]
  after_results_simp
  unfold tailFn Cert.KernelIdeal.Host.trans pairIdx wrapIdx
  rfl

/-- The kernel program's scalar result: the tail's function of the result array, the clamped tags, the
    transition table and the pairs' weights as the region finds them. -/
def result (c : Dev nD) : FVec Ideal S_ .f32 := tailFn (Gout m c) (GA m c) (PA m c) (BA m c) (WT m c)

/-- The buffer the program returns, after the region and the tail, holds that result. -/
theorem tail_eq (c : Dev nD) :
    Pipeline.afterTail₀ cfgs (dats m) 0 (V0 m) [hostOps1] c main_v57 = result m c := by
  unfold Pipeline.afterTail₀
  simp only [List.flatten_cons, List.flatten_nil, List.append_nil]
  refine (tail_generic _).trans ?_
  have h17 : Pipeline.withArrays (cfgs 0).spec c (V0 m c) (fun w => (dats m 0 c).arrAt w (cfgs 0).N) (Proc.devRef .tc main_v17)
      = Gout m c :=
    (Pipeline.withArrays_arr spec0 launch0.win.arr_inj c _ _ 4).trans (final_out m c)
  have h0 : Pipeline.withArrays (cfgs 0).spec c (V0 m c) (fun w => (dats m 0 c).arrAt w (cfgs 0).N) (Proc.devRef .tc main_v0)
      = GA m c :=
    (Pipeline.withArrays_arr spec0 launch0.win.arr_inj c _ _ 1).trans (((dats m 0 c).arrAt_in 1 rfl _).trans (A_eq m c 1))
  have h1 : Pipeline.withArrays (cfgs 0).spec c (V0 m c) (fun w => (dats m 0 c).arrAt w (cfgs 0).N) (Proc.devRef .tc main_v1)
      = PA m c :=
    (Pipeline.withArrays_arr spec0 launch0.win.arr_inj c _ _ 2).trans (((dats m 0 c).arrAt_in 2 rfl _).trans (A_eq m c 2))
  have hb : Pipeline.withArrays (cfgs 0).spec c (V0 m c) (fun w => (dats m 0 c).arrAt w (cfgs 0).N) (Proc.devRef .tc main_arg1)
      = BA m c :=
    Pipeline.withArrays_of_ne _ c (V0 m c) _ main_arg1 (by exact (by decide : ∀ w, Pipeline.arrRef spec0 w ≠ main_arg1))
  have hw : Pipeline.withArrays (cfgs 0).spec c (V0 m c) (fun w => (dats m 0 c).arrAt w (cfgs 0).N) (Proc.devRef .tc main_v16)
      = WT m c :=
    Pipeline.withArrays_of_ne _ c (V0 m c) _ main_v16 (by exact (by decide : ∀ w, Pipeline.arrRef spec0 w ≠ main_v16))
  unfold result
  rw [h17, h0, h1, hb, hw]

/-- The kernel program's run, read: every weakly fair execution ends with the returned buffer at `result` and the
    arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v57) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v57 (Pipeline.mem_restRefs_of main_v57 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tail

end
-- ==== Proof.KPre.lean ====
/-
  What the region finds in the arrays the host computed before it.

  The host operations before the region leave, in the buffers the region's windows stage, the clamp of the
  gold tags, the clamp of the predicted tags and the positions' validity weights, and in one more buffer the
  pairs' validity weights the tail reads: each is its closed term of the program's arguments.
-/
import proofs.«403473_j8581344658203_3_alg».proof.Proof.Gen.KernelIdeal.Frame
import proofs.«403473_j8581344658203_3_alg».proof.Proof.KHost
import Idealize.ShloMosaic.Lib.StableHlo.Run

noncomputable section

namespace Cert.KernelIdeal.Pre

open Cert.KernelIdeal Cert.KernelIdeal.Gen Cert.KernelIdeal.Host
open Idealize.ShloMosaic Idealize.ShloMosaic.TcCoe Idealize.SL.Sem Idealize.ShloMosaic.StableHlo

variable (m : (ℓ : Loc nD τ sig) → Buf (Elt Ideal) ℓ)

/-- The gold tags the region stages are the clamp of the program's third argument. -/
theorem gold_eq (c : Dev nD) :
    (V m c main_v0 : IVec S32x2048 32) = clampArr (m ((c : Thread nD τ).loc main_arg2)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  unfold clampArr
  rfl

/-- The predicted tags the region stages are the clamp of the program's fourth argument. -/
theorem pred_eq (c : Dev nD) :
    (V m c main_v1 : IVec S32x2048 32) = clampArr (m ((c : Thread nD τ).loc main_arg3)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  unfold clampArr
  rfl

/-- The positions' validity weights the region stages, of the program's fifth argument (the mask). -/
theorem valid_eq (c : Dev nD) :
    (V m c main_v9 : FVec Ideal S32x2048 .f32) = validArr (m ((c : Thread nD τ).loc main_arg4)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  unfold validArr lenArr
  rfl

/-- The pairs' validity weights the tail reads, of the mask. -/
theorem validPair_eq (c : Dev nD) :
    (V m c main_v16 : FVec Ideal S32x2047 .f32) = validPairArr (m ((c : Thread nD τ).loc main_arg4)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  unfold validPairArr lenArr
  rfl

end Cert.KernelIdeal.Pre

end
-- ==== Proof.Shared.lean ====
/-
  The host-side quantities the two programs share.

  Both programs compute the rows' lengths, the positions' and the pairs' validity weights and the gathered
  transition potentials by the same operations on the same arguments; the reference computes the weights
  twice, once per tagging it scores. Each equation below says two such spellings are one array: both sides
  unfold to the same chain of operations.
-/
import proofs.«403473_j8581344658203_3_alg».proof.Proof.KHost
import proofs.«403473_j8581344658203_3_alg».proof.Proof.RefRead

noncomputable section

namespace Cert.Shared

open Idealize.ShloMosaic
open Cert.KernelIdeal.Host Cert.ReferenceIdeal.ReadP

/-- The positions' validity weights: the kernel program's array is the reference's (as scored for the predicted tagging). -/
theorem valid_eq (mk : IVec Cert.KernelIdeal.S32x2048 32) :
    validArr mk = val_main_v46 (F := Ideal) mk := by
  -- both sides: the conversion of the comparison "position number below the row's length", the position
  -- numbers an iota broadcast along the rows, the lengths the rows' mask sums broadcast along the positions
  unfold validArr lenArr
  unfold val_main_v46 val_main_v45 val_main_v43 val_main_v44 val_main_v41 val_main_v42 val_main_v40 val_main_v39
    val_main_c_5
  rfl

/-- The reference's two computations of the positions' weights are one array. -/
theorem valid_gold_eq (mk : IVec Cert.ReferenceIdeal.S32x2048 32) :
    val_main_v7 (F := Ideal) mk = val_main_v46 (F := Ideal) mk := by
  -- the two chains of stages are the same operations under different stage names
  unfold val_main_v7 val_main_v6 val_main_v4 val_main_v5 val_main_v2 val_main_v3 val_main_v1 val_main_v0 val_main_c
  unfold val_main_v46 val_main_v45 val_main_v43 val_main_v44 val_main_v41 val_main_v42 val_main_v40 val_main_v39
    val_main_c_5
  rfl

/-- The pairs' validity weights: the kernel program's array is the reference's (as scored for the predicted tagging). -/
theorem validPair_eq (mk : IVec Cert.KernelIdeal.S32x2048 32) :
    validPairArr mk = val_main_v72 (F := Ideal) mk := by
  -- both sides: the conversion of the comparison "next position's number below the row's length", the
  -- numbers the iota's slice from 1 on, broadcast along the rows
  unfold validPairArr lenArr
  unfold val_main_v72 val_main_v71 val_main_v69 val_main_v70 val_main_v67 val_main_v68 val_main_v66 val_main_v40
    val_main_v39 val_main_c_5
  rfl

/-- The reference's two computations of the pairs' weights are one array. -/
theorem validPair_gold_eq (mk : IVec Cert.ReferenceIdeal.S32x2048 32) :
    val_main_v33 (F := Ideal) mk = val_main_v72 (F := Ideal) mk := by
  unfold val_main_v33 val_main_v32 val_main_v30 val_main_v31 val_main_v28 val_main_v29 val_main_v27 val_main_v1
    val_main_v0 val_main_c
  unfold val_main_v72 val_main_v71 val_main_v69 val_main_v70 val_main_v67 val_main_v68 val_main_v66 val_main_v40
    val_main_v39 val_main_c_5
  rfl

/-- The transition potentials along a tagging: the kernel program's gather is the reference's gather for the predicted tagging … -/
theorem trans_pred_eq (Bn : FVec Ideal Cert.KernelIdeal.S512x512 .f32) (x : IVec Cert.KernelIdeal.S32x2048 32) :
    trans Bn x = val_main_v65 (F := Ideal) Bn x := by
  -- both sides gather the table at the pairs (earlier tag, later tag), each tag passed through the wrap of
  -- negative indices; the two programs' records of the gather's dimensions have the same fields
  unfold Cert.KernelIdeal.Host.trans pairIdx wrapIdx
  unfold val_main_v65 val_main_v64 val_main_v62 val_main_v63 val_main_v56 val_main_v61 val_main_v53 val_main_v55
    val_main_v58 val_main_v60 val_main_v50 val_main_v51 val_main_v52 val_main_v54 val_main_v57 val_main_v59
    val_main_c_6 val_main_c_7 val_main_c_8 val_main_c_9
  unfold Cert.KernelIdeal.gather_S512x512_S32x2047x2_S32x2047_n_01_n_n_01_2_11
    Cert.ReferenceIdeal.gather_S512x512_S32x2047x2_S32x2047_n_01_n_n_01_2_11
  rfl

/-- … and its gather for the gold tagging, at the same tagging. -/
theorem trans_gold_eq (Bn : FVec Ideal Cert.KernelIdeal.S512x512 .f32) (x : IVec Cert.KernelIdeal.S32x2048 32) :
    trans Bn x = val_main_v26 (F := Ideal) Bn x := by
  unfold Cert.KernelIdeal.Host.trans pairIdx wrapIdx
  unfold val_main_v26 val_main_v25 val_main_v23 val_main_v24 val_main_v17 val_main_v22 val_main_v14 val_main_v16
    val_main_v19 val_main_v21 val_main_v11 val_main_v12 val_main_v13 val_main_v15 val_main_v18 val_main_v20
    val_main_c_0 val_main_c_1 val_main_c_2 val_main_c_3
  unfold Cert.KernelIdeal.gather_S512x512_S32x2047x2_S32x2047_n_01_n_n_01_2_11
    Cert.ReferenceIdeal.gather_S512x512_S32x2047x2_S32x2047_n_01_n_n_01_2_11
  rfl

end Cert.Shared

end
-- ==== Proof.Margin.lean ====
/-
  Vocabulary shared by the two programs' value statements.

  A tagging assigns each position (b, s) of a batch of sequences a tag, an integer word. The unary
  potential the tagging selects at (b, s) is the entry of the potentials' row (b, s) in the tag's column.
  The tag word is read as a natural number and reduced modulo the number of tags, 512, so that the
  expression is defined for every word; for a tag in [0, 512) it is the tag itself (`pick_col`).
-/
import Idealize.ShloMosaic.Lib.ValueIdx

namespace Cert.Margin

open Idealize.ShloMosaic Idealize.ShloMosaic.ValueIdx

/-- The column a tag word names: its value as a natural number, modulo the 512 tags. -/
def col (w : BitVec 32) : Fin 512 := ⟨w.toNat % 512, Nat.mod_lt _ (by decide)⟩

/-- For a word in [0, 512) the column is the word's value. -/
theorem col_val (w : BitVec 32) (h : w.toNat < 512) : (col w).val = w.toNat := Nat.mod_eq_of_lt h

/-- The unary potential the tagging `t` selects at batch row `b`, position `s`. -/
def pick (U : (⟨3, ![32, 2048, 512]⟩ : Shape).Idx → EReal) (t : (⟨2, ![32, 2048]⟩ : Shape).Idx → BitVec 32)
    (b : Fin 32) (s : Fin 2048) : EReal :=
  U (ix3 b s (col (t (ix2 b s))))

/-- A word whose signed value lies in [0, 512) has that value as its unsigned one, below 512. -/
theorem toNat_of_range (w : BitVec 32) (h0 : 0 ≤ w.toInt) (h1 : w.toInt < 512) :
    w.toNat < 512 ∧ w.toInt = (w.toNat : Int) := by
  have := w.isLt
  unfold BitVec.toInt at h0 h1 ⊢
  split at h1 <;> simp_all <;> omega

end Cert.Margin
-- ==== Proof.RefValue.lean ====
/-
  The reference's result, read entry by entry.

  The reference scores each tagging: per batch row, the sum over positions of the selected unary potential
  times the position's validity weight, plus the sum over adjacent pairs of the transition potential times
  the pair's weight; it subtracts the gold score from the predicted one, clamps at zero and adds the rows.
  Its selection of a unary potential is a gather along the tag axis guarded by a range test; for tags in
  [0, 512) the guard passes and the gather reads the tag's column, which is `Cert.Margin.pick`.
-/
import proofs.«403473_j8581344658203_3_alg».proof.Proof.RefRead
import proofs.«403473_j8581344658203_3_alg».proof.Proof.Margin

noncomputable section

open scoped BigOperators

namespace Cert.ReferenceIdeal.RefValue

open Cert.ReferenceIdeal Cert.ReferenceIdeal.Gen Cert.ReferenceIdeal.ReadP
open Idealize.ShloMosaic Idealize.ShloMosaic.ValueIdx Cert.Margin

/-- A left fold by `and` from 1 over bits that are all 1 stays 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_ones f hf l

/-- A reduction by `and` from the initial value 1 of an array whose bits are all 1 is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones (fun n => x (s.rowMajor.symm n)) (fun n => hx _) _

/-- The index a tag is read at, for the gather's start-index array at (b, s, ·, ·). -/
theorem idx47_idx5 (b : Fin 32) (s : Fin 2048) (c e : Fin 1) :
    idx_main_v47 (idx_main_call1_v5 (ix4 b s c e)) = ix2 b s := by
  have hb := b.isLt
  have hs := s.isLt
  have hc := c.isLt
  have he := e.isLt
  funext a
  match a with
  | ⟨0, _⟩ => exact Fin.ext (by show (((b.val * 2048 + s.val) * 1 + c.val) * 1 + e.val) / 2048 = b.val; omega)
  | ⟨1, _⟩ => exact Fin.ext (by show (((b.val * 2048 + s.val) * 1 + c.val) * 1 + e.val) / 1 % 2048 = s.val; omega)

/-- The wrapped index of `take_along_axis` (a negative tag moved up by the number of tags) is the tag itself
    when the tag is not negative. -/
theorem wrapped_tag (t : IVec S32x2048 32) (ht : ∀ i, 0 ≤ (t i).toInt ∧ (t i).toInt < 512) (i : S32x2048x1.Idx) :
    val_main_call1_v4 (F := Ideal) t i = t (idx_main_v47 i) := by
  rw [val_main_call1_v4_apply, val_main_call1_v1_apply, val_main_v47_apply, val_main_call1_v0_apply,
    val_main_call1_c_apply]
  have hn : ¬ IntOp.cmpi .slt (t (idx_main_v47 i)) 0#32 = 1#1 := by
    rw [IntOp.cmpi_slt]
    have h0 : (0#32 : BitVec 32).toInt = 0 := by decide
    have := (ht (idx_main_v47 i)).1
    omega
  rw [eq_zero_of_ne_one hn, select_zero]

/-- The gather's start-index array holds the tags. -/
theorem start_tag (t : IVec S32x2048 32) (ht : ∀ i, 0 ≤ (t i).toInt ∧ (t i).toInt < 512) (j : S32x2048x1x1.Idx) :
    val_main_call1_v5 (F := Ideal) t j = t (idx_main_v47 (idx_main_call1_v5 j)) := by
  rw [val_main_call1_v5_apply, wrapped_tag t ht]

/-- The range guard of `take_along_axis` passes at every position: each tag is at least 0 and at most 511. -/
theorem guard_one (t : IVec S32x2048 32) (ht : ∀ i, 0 ≤ (t i).toInt ∧ (t i).toInt < 512) (i : S32x2048x1.Idx) :
    val_main_call1_v12 (F := Ideal) t i = 1#1 := by
  unfold val_main_call1_v12
  refine reduce_andi_ones _ _ _ _ (fun j => ?_) (fun k => rfl) i
  rw [val_main_call1_v11_apply, val_main_call1_v7_apply, val_main_call1_v10_apply, start_tag t ht,
    val_main_call1_v6_apply, val_main_call1_c_2_apply, val_main_call1_v9_apply, val_main_call1_v8_apply,
    val_main_call1_c_1_apply]
  have h0 : (0#32 : BitVec 32).toInt = 0 := by decide
  have h511 : (511#32 : BitVec 32).toInt = 511 := by decide
  have := ht (idx_main_v47 (idx_main_call1_v5 j))
  exact IntOp.andi_eq_one.2 ⟨IntOp.cmpi_sge.2 (by omega), IntOp.cmpi_sle.2 (by omega)⟩

local notation "gd" => gather_S32x2048x512_S32x2048x1x1_S32x2048x1_n_2_01_01_2_3_111

/-- The position the reshaped selection is read at. -/
theorem idx49 (b : Fin 32) (s : Fin 2048) : idx_main_v49 (ix2 b s) = ix3 b s (0 : Fin 1) := by
  have hb := b.isLt
  have hs := s.isLt
  funext a
  match a with
  | ⟨0, _⟩ => exact Fin.ext (by show (b.val * 2048 + s.val) / 2048 = b.val; omega)
  | ⟨1, _⟩ => exact Fin.ext (by show (b.val * 2048 + s.val) / 1 % 2048 = s.val; omega)
  | ⟨2, _⟩ => rfl

/-- The gather along the tag axis, read at (b, s, ·): batch axes 0 and 1 carry the position over, and on the
    tag axis the start index is the tag, clamped into [0, 511], which for a tag in range is the tag's column. -/
theorem gather_pick (U : FVec Ideal S32x2048x512 .f32) (t : IVec S32x2048 32)
    (ht : ∀ i, 0 ≤ (t i).toInt ∧ (t i).toInt < 512) (b : Fin 32) (s : Fin 2048) (c : Fin 1) :
    val_main_call1_v13 (F := Ideal) U t (ix3 b s c) = pick U t b s := by
  obtain ⟨hlt, hint⟩ := toNat_of_range (t (ix2 b s)) (ht _).1 (ht _).2
  unfold val_main_call1_v13 Host.gather pick
  refine congrArg U (funext fun a => Fin.ext ?_)
  match a with
  | ⟨0, _⟩ =>
    show GatherDims.start gd (ix3 b s c) (val_main_call1_v5 (F := Ideal) t) (0 : Fin 3) + GatherDims.batchCoord gd (ix3 b s c) (0 : Fin 3) + GatherDims.offCoord gd (ix3 b s c) (0 : Fin 3) = b.val
    rw [GatherDims.start_batching _ _ _ _ (by decide), GatherDims.offCoord_eq_zero _ _ _ (by rw [GatherDims.mem_sKept]; decide)]
    rw [Nat.zero_add, Nat.add_zero]
    unfold GatherDims.batchCoord
    rw [dif_pos (by decide)]
    rfl
  | ⟨1, _⟩ =>
    show GatherDims.start gd (ix3 b s c) (val_main_call1_v5 (F := Ideal) t) (1 : Fin 3) + GatherDims.batchCoord gd (ix3 b s c) (1 : Fin 3) + GatherDims.offCoord gd (ix3 b s c) (1 : Fin 3) = s.val
    rw [GatherDims.start_batching _ _ _ _ (by decide), GatherDims.offCoord_eq_zero _ _ _ (by rw [GatherDims.mem_sKept]; decide)]
    rw [Nat.zero_add, Nat.add_zero]
    unfold GatherDims.batchCoord
    rw [dif_pos (by decide)]
    rfl
  | ⟨2, _⟩ =>
    show GatherDims.start gd (ix3 b s c) (val_main_call1_v5 (F := Ideal) t) (2 : Fin 3) + GatherDims.batchCoord gd (ix3 b s c) (2 : Fin 3) + GatherDims.offCoord gd (ix3 b s c) (2 : Fin 3) = (col (t (ix2 b s))).val
    rw [GatherDims.batchCoord_eq_zero _ _ _ (by decide), GatherDims.offCoord_eq_zero _ _ _ (by rw [GatherDims.mem_sKept]; decide)]
    unfold GatherDims.start
    rw [dif_pos (by decide)]
    have hsi : GatherDims.siIdx gd (ix3 b s c) ⟨List.idxOf (2 : Fin 3) (GatherDims.startIndexMap gd), by decide⟩
        = ix4 b s c (0 : Fin 1) := by
      funext b'
      refine Fin.ext ?_
      match b' with
      | ⟨0, _⟩ => rfl
      | ⟨1, _⟩ => rfl
      | ⟨2, _⟩ => rfl
      | ⟨3, _⟩ => rfl
    rw [hsi, start_tag t ht, idx47_idx5, hint]
    rw [Int.toNat_natCast, Nat.add_zero, col_val _ hlt]
    show min (t (ix2 b s)).toNat (512 - 1) = (t (ix2 b s)).toNat
    omega

/-- The selected unary potential: the guard passes, so the selection is the gathered entry. -/
theorem v49_pick (U : FVec Ideal S32x2048x512 .f32) (t : IVec S32x2048 32)
    (ht : ∀ i, 0 ≤ (t i).toInt ∧ (t i).toInt < 512) (b : Fin 32) (s : Fin 2048) :
    val_main_v49 (F := Ideal) U t (ix2 b s) = pick U t b s := by
  rw [val_main_v49_apply, idx49, val_main_v48_apply, guard_one t ht, select_one, gather_pick U t ht]

/-- The two inlined copies of `take_along_axis` are the same function of the tagging. -/
theorem v10_eq_v49 (U : FVec Ideal S32x2048x512 .f32) (t : IVec S32x2048 32) :
    val_main_v10 (F := Ideal) U t = val_main_v49 (F := Ideal) U t := rfl

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The position a row sum over 2048 positions reads its k-th term at. -/
theorem idx74 (b : Fin 32) (k : Fin 2048) : idx_main_v74 (ix1 b) k = ix2 b k :=
  funext fun a => by match a with | ⟨0, _⟩ => rfl | ⟨1, _⟩ => rfl

/-- The position a row sum over 2047 adjacent pairs reads its k-th term at. -/
theorem idx76 (b : Fin 32) (k : Fin 2047) : idx_main_v76 (ix1 b) k = ix2 b k :=
  funext fun a => by match a with | ⟨0, _⟩ => rfl | ⟨1, _⟩ => rfl

/-- The predicted tagging's unary score of row b. -/
theorem unary_sum_pred (U : FVec Ideal S32x2048x512 .f32) (t mk : IVec S32x2048 32)
    (ht : ∀ i, 0 ≤ (t i).toInt ∧ (t i).toInt < 512) (b : Fin 32) :
    val_main_v74 (F := Ideal) U t mk (ix1 b)
      = (0 + ∑ s : Fin 2048, pick U t b s * (val_main_v46 (F := Ideal) mk (ix2 b s) : EReal) : EReal) := by
  rw [val_main_v74_apply]
  refine congrArg₂ (· + ·) Ideal.ofBits_zero_f32 (Finset.sum_congr rfl fun s _ => ?_)
  rw [idx74, val_main_v73_apply, v49_pick U t ht]
  rfl

/-- The gold tagging's unary score of row b. -/
theorem unary_sum_gold (U : FVec Ideal S32x2048x512 .f32) (t mk : IVec S32x2048 32)
    (ht : ∀ i, 0 ≤ (t i).toInt ∧ (t i).toInt < 512) (b : Fin 32) :
    val_main_v35 (F := Ideal) U t mk (ix1 b)
      = (0 + ∑ s : Fin 2048, pick U t b s * (val_main_v7 (F := Ideal) mk (ix2 b s) : EReal) : EReal) := by
  rw [val_main_v35_apply]
  refine congrArg₂ (· + ·) Ideal.ofBits_zero_f32 (Finset.sum_congr rfl fun s _ => ?_)
  rw [show idx_main_v35 (ix1 b) s = ix2 b s from idx74 b s, val_main_v34_apply, v10_eq_v49, v49_pick U t ht]
  rfl

/-- The predicted tagging's transition score of row b. -/
theorem trans_sum_pred (Bn : FVec Ideal S512x512 .f32) (t mk : IVec S32x2048 32) (b : Fin 32) :
    val_main_v76 (F := Ideal) Bn t mk (ix1 b)
      = (0 + ∑ k : Fin 2047, (val_main_v65 (F := Ideal) Bn t (ix2 b k) : EReal) * (val_main_v72 (F := Ideal) mk (ix2 b k) : EReal) : EReal) := by
  rw [val_main_v76_apply]
  refine congrArg₂ (· + ·) Ideal.ofBits_zero_f32 (Finset.sum_congr rfl fun k _ => ?_)
  rw [idx76]
  rfl

/-- The gold tagging's transition score of row b. -/
theorem trans_sum_gold (Bn : FVec Ideal S512x512 .f32) (t mk : IVec S32x2048 32) (b : Fin 32) :
    val_main_v37 (F := Ideal) Bn t mk (ix1 b)
      = (0 + ∑ k : Fin 2047, (val_main_v26 (F := Ideal) Bn t (ix2 b k) : EReal) * (val_main_v33 (F := Ideal) mk (ix2 b k) : EReal) : EReal) := by
  rw [val_main_v37_apply]
  refine congrArg₂ (· + ·) Ideal.ofBits_zero_f32 (Finset.sum_congr rfl fun k _ => ?_)
  rw [show idx_main_v37 (ix1 b) k = ix2 b k from idx76 b k]
  rfl

/-- One batch row of the clamped score difference. -/
theorem row_eq (U : FVec Ideal S32x2048x512 .f32) (Bn : FVec Ideal S512x512 .f32) (tg pg mk : IVec S32x2048 32)
    (htg : ∀ i, 0 ≤ (tg i).toInt ∧ (tg i).toInt < 512) (hpg : ∀ i, 0 ≤ (pg i).toInt ∧ (pg i).toInt < 512) (b : Fin 32) :
    val_main_v80 (F := Ideal) U Bn tg pg mk (ix1 b)
      = (max
        (((0 + ∑ s : Fin 2048, pick U pg b s * (val_main_v46 (F := Ideal) mk (ix2 b s) : EReal))
            + (0 + ∑ k : Fin 2047, (val_main_v65 (F := Ideal) Bn pg (ix2 b k) : EReal) * (val_main_v72 (F := Ideal) mk (ix2 b k) : EReal)))
          - ((0 + ∑ s : Fin 2048, pick U tg b s * (val_main_v7 (F := Ideal) mk (ix2 b s) : EReal))
            + (0 + ∑ k : Fin 2047, (val_main_v26 (F := Ideal) Bn tg (ix2 b k) : EReal) * (val_main_v33 (F := Ideal) mk (ix2 b k) : EReal)))) 0 : EReal) := by
  have hz : val_main_v79 (F := Ideal) (ix1 b) = (0 : EReal) := by
    rw [val_main_v79_apply]
    exact Ideal.ofBits_zero_f32
  rw [val_main_v80_apply, val_main_v78_apply, val_main_v77_apply, val_main_v38_apply, unary_sum_pred U pg mk hpg,
    trans_sum_pred Bn pg mk, unary_sum_gold U tg mk htg, trans_sum_gold Bn tg mk, hz]
  rfl

/-- The reference's scalar result for tags in range: the clamped difference of the two taggings' scores,
    summed over the batch, every host sum started from its initial value zero. -/
theorem result_eq (U : FVec Ideal S32x2048x512 .f32) (Bn : FVec Ideal S512x512 .f32) (tg pg mk : IVec S32x2048 32)
    (htg : ∀ i, 0 ≤ (tg i).toInt ∧ (tg i).toInt < 512) (hpg : ∀ i, 0 ≤ (pg i).toInt ∧ (pg i).toInt < 512) :
    val_main_v81 (F := Ideal) U Bn tg pg mk = fun _ =>
      (0 + ∑ b : Fin 32, max
        (((0 + ∑ s : Fin 2048, pick U pg b s * (val_main_v46 (F := Ideal) mk (ix2 b s) : EReal))
            + (0 + ∑ k : Fin 2047, (val_main_v65 (F := Ideal) Bn pg (ix2 b k) : EReal) * (val_main_v72 (F := Ideal) mk (ix2 b k) : EReal)))
          - ((0 + ∑ s : Fin 2048, pick U tg b s * (val_main_v7 (F := Ideal) mk (ix2 b s) : EReal))
            + (0 + ∑ k : Fin 2047, (val_main_v26 (F := Ideal) Bn tg (ix2 b k) : EReal) * (val_main_v33 (F := Ideal) mk (ix2 b k) : EReal)))) 0 : EReal) := by
  funext i
  rw [val_main_v81_apply]
  refine congrArg₂ (· + ·) Ideal.ofBits_zero_f32 ?_
  rw [sum_idx1]
  exact Finset.sum_congr rfl fun b _ => row_eq U Bn tg pg mk htg hpg b

end Cert.ReferenceIdeal.RefValue

end
-- ==== Proof.ScoreDiff.lean ====
/-
  The arithmetic that joins the two programs, free of any program.

  A sequence's score under a tagging is a sum of unary terms `a i * v i` over its positions and of
  transition terms `p k * w k` over its adjacent pairs, each weighted by a validity weight. One program
  forms the two scores and subtracts them; the other sums the weighted DIFFERENCES of the unary terms and
  of the transition terms. Over the reals these agree because subtraction distributes over the weights and
  over finite sums (`margin_eq`). The second program also takes its unary sum block by block along the
  sequence — eight blocks of 256 positions — which is the same sum regrouped (`sum_blocks`).

  Both programs compute on extended reals; a finite sum of reals, embedded, is the sum of the embedded terms
  (`coe_sum`), which is what lets the comparison be made in the reals once every entry is known finite.
-/
import Idealize.ShloMosaic.PureOps.Ideal.Laws

open scoped BigOperators

namespace Cert.ScoreDiff

/-- The embedding of the reals into the extended reals carries finite sums to finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The difference of two weighted scores is the weighted score of the differences. -/
theorem margin_eq {ι κ : Type} [Fintype ι] [Fintype κ] (a b v : ι → ℝ) (p g w : κ → ℝ) :
    (∑ i, (a i - b i) * v i) + (∑ k, (p k - g k) * w k)
      = ((∑ i, a i * v i) + ∑ k, p k * w k) - ((∑ i, b i * v i) + ∑ k, g k * w k) := by
  simp only [sub_mul, Finset.sum_sub_distrib]
  ring

/-- A sum over 2048 positions, taken as eight consecutive blocks of 256. -/
theorem sum_blocks (f : Fin (8 * 256) → ℝ) :
    (∑ j : Fin 8, ∑ r : Fin 256, f (finProdFinEquiv (j, r))) = ∑ s : Fin (8 * 256), f s :=
  (Fintype.sum_prod_type' (fun (j : Fin 8) (r : Fin 256) => f (finProdFinEquiv (j, r)))).symm.trans
    (Equiv.sum_comp finProdFinEquiv f)

end Cert.ScoreDiff
-- ==== Proof.Bridge.lean ====
/-
  The two programs' results as extended reals, joined.

  Per batch row one program forms the weighted sum of the DIFFERENCES of the selected unary potentials,
  taken as eight blocks of 256 positions, adds the weighted sum of the differences of the transition
  potentials, and clamps at zero; the other forms each tagging's whole score (unary sum plus transition
  sum, each host sum started from its initial value zero), subtracts the two scores and clamps at zero.
  Both then add the 32 rows. When every entry is a real number the two agree: the comparison is made in
  the reals (`Cert.ScoreDiff.margin_eq`, `sum_blocks`) and carried back along the embedding.
-/
import proofs.«403473_j8581344658203_3_alg».proof.Proof.ScoreDiff

open scoped BigOperators

namespace Cert.Bridge

/-- One batch row, all entries real: the block-wise weighted sum of differences plus the weighted sum of
    transition differences is the difference of the two whole scores. Every extended-real expression is the
    embedding of the same expression over the reals, where the identity is `Cert.ScoreDiff.margin_eq` after
    the eight blocks are regrouped into one sum (`Cert.ScoreDiff.sum_blocks`). -/
theorem row_eq (a g v : Fin (8 * 256) → ℝ) (p q w : Fin 2047 → ℝ) :
    ((∑ j : Fin 8, ∑ r : Fin 256,
          ((a (finProdFinEquiv (j, r)) : EReal) - (g (finProdFinEquiv (j, r)) : EReal))
            * (v (finProdFinEquiv (j, r)) : EReal))
        + (0 + ∑ k : Fin 2047, ((p k : EReal) - (q k : EReal)) * (w k : EReal)) : EReal)
      = ((0 + ∑ s : Fin (8 * 256), (a s : EReal) * (v s : EReal))
            + (0 + ∑ k : Fin 2047, (p k : EReal) * (w k : EReal)))
          - ((0 + ∑ s : Fin (8 * 256), (g s : EReal) * (v s : EReal))
            + (0 + ∑ k : Fin 2047, (q k : EReal) * (w k : EReal))) := by
  have hb := Cert.ScoreDiff.sum_blocks (fun s => (a s - g s) * v s)
  have hm := Cert.ScoreDiff.margin_eq a g v p q w
  simp only [zero_add]
  simp only [← EReal.coe_sub, ← EReal.coe_mul, ← Cert.ScoreDiff.coe_sum, ← EReal.coe_add]
  rw [hb, hm]

/-- The clamped score differences, summed over the batch: the block-wise sum of weighted differences
    equals the difference of the two weighted scores, entry by entry finite. -/
theorem margin_total_eq
    (xp xg v : Fin 32 → Fin (8 * 256) → EReal) (TP TG w : Fin 32 → Fin 2047 → EReal)
    (hxp : ∀ b s, ∃ r : ℝ, xp b s = (r : EReal)) (hxg : ∀ b s, ∃ r : ℝ, xg b s = (r : EReal))
    (hv : ∀ b s, ∃ r : ℝ, v b s = (r : EReal))
    (hTP : ∀ b k, ∃ r : ℝ, TP b k = (r : EReal)) (hTG : ∀ b k, ∃ r : ℝ, TG b k = (r : EReal))
    (hw : ∀ b k, ∃ r : ℝ, w b k = (r : EReal)) :
    (0 + ∑ b : Fin 32, max
        ((∑ j : Fin 8, ∑ r : Fin 256,
            (xp b (finProdFinEquiv (j, r)) - xg b (finProdFinEquiv (j, r))) * v b (finProdFinEquiv (j, r)))
          + (0 + ∑ k : Fin 2047, (TP b k - TG b k) * w b k)) 0 : EReal)
      = 0 + ∑ b : Fin 32, max
        (((0 + ∑ s : Fin (8 * 256), xp b s * v b s) + (0 + ∑ k : Fin 2047, TP b k * w b k))
          - ((0 + ∑ s : Fin (8 * 256), xg b s * v b s) + (0 + ∑ k : Fin 2047, TG b k * w b k))) 0 := by
  choose xp' hxp using hxp
  choose xg' hxg using hxg
  choose v' hv using hv
  choose TP' hTP using hTP
  choose TG' hTG using hTG
  choose w' hw using hw
  refine congrArg (fun t : EReal => 0 + t) (Finset.sum_congr rfl fun b _ => ?_)
  refine congrArg (fun t : EReal => max t 0) ?_
  simp only [hxp, hxg, hv, hTP, hTG, hw]
  exact row_eq (xp' b) (xg' b) (v' b) (TP' b) (TG' b) (w' b)

end Cert.Bridge
-- ==== Proof.Decode.lean ====
/-
  What the precondition says, entry by entry.

  The precondition is a conjunction of four "for all entries" tests, each a reduction by `and` that must come
  out 1: every unary potential and every transition potential has absolute value below +infinity, hence is a
  real number (an extended real whose absolute value is below the top element is neither infinity); every tag
  and every predicted tag is at least 0 and below 512 as a signed word.
-/
import proofs.«403473_j8581344658203_3_alg».proof.Pre_finite_inputs
import proofs.«403473_j8581344658203_3_alg».proof.Proof.Margin
import Idealize.ShloMosaic.Lib.ReduceAll
import Idealize.ShloMosaic.PureOps.Ideal

namespace Cert.Decode

open Idealize.ShloMosaic Cert.Pre_finite_inputs

variable [Cert.Pre_finite_inputs.Facts]

/-- The rank-0 shape has one index. -/
local instance : Subsingleton S_.Idx := ⟨fun a b => funext fun d => d.elim0⟩

/-- The pattern 0x7F800000 — sign clear, exponent all ones, fraction zero — denotes +infinity. -/
theorem inf_bits : Ideal.ofBits .f32 0x7F800000#32 = (⊤ : EReal) := by
  simp [Ideal.ofBits, Ideal.ieee]

/-- An extended real whose absolute value `max x (-x)` is below +infinity is a real number: at either
    infinity the absolute value is +infinity itself. -/
theorem real_of_abs_lt_top (x : EReal) (h : Ideal.cmp .olt (max x (-x)) (⊤ : EReal) = 1#1) :
    ∃ r : ℝ, x = (r : EReal) := by
  have hlt : max x (-x) < ⊤ := by
    by_contra hn
    simp [Ideal.cmp, hn] at h
  induction x using EReal.rec with
  | bot => simp at hlt
  | coe r => exact ⟨r, rfl⟩
  | top => simp at hlt

/-- The two comparison bits of a range test, both 1: the word is at least 0 and below 512, signed. -/
theorem range_of_bits (w : BitVec 32)
    (h : IntOp.andi (IntOp.cmpi .sge w 0#32) (IntOp.cmpi .slt w 512#32) = 1#1) :
    0 ≤ w.toInt ∧ w.toInt < 512 := by
  obtain ⟨g, l⟩ := IntOp.andi_eq_one.1 h
  rw [IntOp.cmpi_sge] at g
  rw [IntOp.cmpi_slt] at l
  have h0 : (0#32 : BitVec 32).toInt = 0 := by decide
  have h512 : (512#32 : BitVec 32).toInt = 512 := by decide
  rw [h0] at g
  rw [h512] at l
  exact ⟨g, l⟩

/-- The precondition, taken apart: the outer conjunction gives four reductions by `and` that each came out 1,
    and a reduction by `and` over all axes that is 1 met a 1 at every index. At an index the compared bit is,
    for the potentials, "absolute value below the broadcast constant" (which is +infinity), and for the tags the
    pair of range comparisons against the broadcast constants 0 and 512. -/
theorem conjuncts (U : FVec Ideal S32x2048x512 .f32) (Bn : FVec Ideal S512x512 .f32) (tg pg mk : IVec S32x2048 32)
    (h : fn (F := Ideal) U Bn tg pg mk = fun _ => 1#1) :
    (∀ i, Ideal.cmp .olt (max (U i) (-(U i))) (⊤ : EReal) = 1#1)
      ∧ (∀ i, Ideal.cmp .olt (max (Bn i) (-(Bn i))) (⊤ : EReal) = 1#1)
      ∧ (∀ i, IntOp.andi (IntOp.cmpi .sge (tg i) 0#32) (IntOp.cmpi .slt (tg i) 512#32) = 1#1)
      ∧ (∀ i, IntOp.andi (IntOp.cmpi .sge (pg i) 0#32) (IntOp.cmpi .slt (pg i) 512#32) = 1#1) := by
  have e := congrFun h ValueIdx.ix0
  dsimp only [fn, fn_part1, andi] at e
  obtain ⟨e123, e4⟩ := IntOp.andi_eq_one.1 e
  obtain ⟨e12, e3⟩ := IntOp.andi_eq_one.1 e123
  obtain ⟨e1, e2⟩ := IntOp.andi_eq_one.1 e12
  refine ⟨fun i => ?_, fun i => ?_, fun i => ?_, fun i => ?_⟩
  · have a := Host.reduce_andi_all _ _ _ _ _ e1 i
    change Ideal.cmp .olt (max (U i) (-(U i))) (Ideal.ofBits .f32 0x7F800000#32) = 1#1 at a
    rwa [inf_bits] at a
  · have a := Host.reduce_andi_all _ _ _ _ _ e2 i
    change Ideal.cmp .olt (max (Bn i) (-(Bn i))) (Ideal.ofBits .f32 0x7F800000#32) = 1#1 at a
    rwa [inf_bits] at a
  · exact Host.reduce_andi_all _ _ _ _ _ e3 i
  · exact Host.reduce_andi_all _ _ _ _ _ e4 i

/-- Under the precondition every unary potential is a real number. -/
theorem unary_real (U : FVec Ideal S32x2048x512 .f32) (Bn : FVec Ideal S512x512 .f32) (tg pg mk : IVec S32x2048 32)
    (h : fn (F := Ideal) U Bn tg pg mk = fun _ => 1#1) : ∀ i, ∃ r : ℝ, U i = (r : EReal) := by
  intro i
  exact real_of_abs_lt_top (U i) ((conjuncts U Bn tg pg mk h).1 i)

/-- Under the precondition every transition potential is a real number. -/
theorem binary_real (U : FVec Ideal S32x2048x512 .f32) (Bn : FVec Ideal S512x512 .f32) (tg pg mk : IVec S32x2048 32)
    (h : fn (F := Ideal) U Bn tg pg mk = fun _ => 1#1) : ∀ i, ∃ r : ℝ, Bn i = (r : EReal) := by
  intro i
  exact real_of_abs_lt_top (Bn i) ((conjuncts U Bn tg pg mk h).2.1 i)

/-- Under the precondition every tag lies in [0, 512) as a signed word. -/
theorem tags_range (U : FVec Ideal S32x2048x512 .f32) (Bn : FVec Ideal S512x512 .f32) (tg pg mk : IVec S32x2048 32)
    (h : fn (F := Ideal) U Bn tg pg mk = fun _ => 1#1) : ∀ i, 0 ≤ (tg i).toInt ∧ (tg i).toInt < 512 := by
  intro i
  exact range_of_bits (tg i) ((conjuncts U Bn tg pg mk h).2.2.1 i)

/-- Under the precondition every predicted tag lies in [0, 512) as a signed word. -/
theorem pred_range (U : FVec Ideal S32x2048x512 .f32) (Bn : FVec Ideal S512x512 .f32) (tg pg mk : IVec S32x2048 32)
    (h : fn (F := Ideal) U Bn tg pg mk = fun _ => 1#1) : ∀ i, 0 ≤ (pg i).toInt ∧ (pg i).toInt < 512 := by
  intro i
  exact range_of_bits (pg i) ((conjuncts U Bn tg pg mk h).2.2.2 i)

end Cert.Decode
-- ==== Proof.OneHot.lean ====
/-
  A one-hot selection, summed.

  The body selects a tag's potential without indexing: for each of the 512 columns it compares the column
  number, as a 32-bit word, with the tag word and keeps the column's potential where they are equal, zero
  elsewhere; then it sums over the columns. For a tag word below 512 exactly one column matches, so the sum
  is that column's potential — on the extended reals too, since all other terms are zero. The difference of
  two such selections, subtracted column by column before the sum, is the difference of the two potentials:
  each column's difference is a sum of the first term and the negated second, the sum splits, and the negated
  selection is again one-hot.
-/
import proofs.«403473_j8581344658203_3_alg».proof.Proof.Margin

open scoped BigOperators

namespace Cert.OneHot

open Idealize.ShloMosaic Cert.Margin

/-- The equality test of two words gives the bit 1 exactly when the words are equal. -/
private theorem cmpi_eq_one_iff (x y : BitVec 32) : IntOp.cmpi .eq x y = 1#1 ↔ x = y := by
  show BitVec.ofBool (x == y) = 1#1 ↔ x = y
  by_cases h : x = y
  · subst h
    simp
  · have hb : (x == y) = false := by simpa using h
    rw [hb]
    constructor
    · intro h1; exact absurd h1 (by decide)
    · intro h1; exact absurd h1 h

/-- For a tag word below 512, the comparison bit at column `t` is 1 exactly at the tag's column:
    the column number as a word is the tag word iff the two have the same value as naturals. -/
private theorem bit_iff (w : BitVec 32) (hw : w.toNat < 512) (t : Fin 512) :
    IntOp.cmpi .eq (BitVec.ofNat 32 t.val) w = 1#1 ↔ t = col w := by
  rw [cmpi_eq_one_iff]
  have ht : t.val < 2 ^ 32 := lt_trans t.isLt (by decide)
  have htn : (BitVec.ofNat 32 t.val).toNat = t.val := by
    rw [BitVec.toNat_ofNat]; exact Nat.mod_eq_of_lt ht
  constructor
  · intro h
    apply Fin.ext
    rw [col_val w hw, ← h, htn]
  · intro h
    apply BitVec.eq_of_toNat_eq
    rw [htn, h, col_val w hw]

/-- The one-hot selection by an in-range tag word is the potential in the tag's column. -/
theorem sum_select_eq (u : Fin 512 → EReal) (w : BitVec 32) (hw : w.toNat < 512) :
    (∑ t : Fin 512, Scalar.select (IntOp.cmpi .eq (BitVec.ofNat 32 t.val) w) (u t) (0 : EReal)) = u (col w) := by
  rw [Finset.sum_eq_single (col w)]
  · -- the term at the tag's column: the bit is 1, the selection keeps the potential
    have h : IntOp.cmpi .eq (BitVec.ofNat 32 (col w).val) w = 1#1 := (bit_iff w hw (col w)).mpr rfl
    rw [h]
    exact ValueIdx.select_one _ _
  · -- every other column: the bit is 0, the selection gives zero
    intro t _ hne
    have h : IntOp.cmpi .eq (BitVec.ofNat 32 t.val) w = 0#1 :=
      ValueIdx.eq_zero_of_ne_one (fun h1 => hne ((bit_iff w hw t).mp h1))
    rw [h]
    exact ValueIdx.select_zero _ _
  · intro h
    exact absurd (Finset.mem_univ _) h

/-- The negation of a selection with zero in the other branch is the selection of the negation. -/
private theorem neg_select (c : BitVec 1) (x : EReal) :
    -(Scalar.select c x (0 : EReal)) = Scalar.select c (-x) (0 : EReal) := by
  by_cases h : c = 1#1
  · subst h
    rw [ValueIdx.select_one, ValueIdx.select_one]
  · have h0 : c = 0#1 := ValueIdx.eq_zero_of_ne_one h
    subst h0
    rw [ValueIdx.select_zero, ValueIdx.select_zero, neg_zero]

/-- The column-wise difference of two one-hot selections, summed, is the difference of the two potentials. -/
theorem sum_select_sub_eq (u : Fin 512 → EReal) (p g : BitVec 32) (hp : p.toNat < 512) (hg : g.toNat < 512) :
    (∑ t : Fin 512, (Scalar.select (IntOp.cmpi .eq (BitVec.ofNat 32 t.val) p) (u t) (0 : EReal)
        - Scalar.select (IntOp.cmpi .eq (BitVec.ofNat 32 t.val) g) (u t) (0 : EReal)))
      = u (col p) - u (col g) := by
  calc (∑ t : Fin 512, (Scalar.select (IntOp.cmpi .eq (BitVec.ofNat 32 t.val) p) (u t) (0 : EReal)
          - Scalar.select (IntOp.cmpi .eq (BitVec.ofNat 32 t.val) g) (u t) (0 : EReal)))
      = ∑ t : Fin 512, (Scalar.select (IntOp.cmpi .eq (BitVec.ofNat 32 t.val) p) (u t) (0 : EReal)
          + Scalar.select (IntOp.cmpi .eq (BitVec.ofNat 32 t.val) g) (-(u t)) (0 : EReal)) := by
        -- each column's difference is the first term plus the negated second, itself a selection
        refine Finset.sum_congr rfl (fun t _ => ?_)
        rw [sub_eq_add_neg, neg_select]
    _ = (∑ t : Fin 512, Scalar.select (IntOp.cmpi .eq (BitVec.ofNat 32 t.val) p) (u t) (0 : EReal))
          + ∑ t : Fin 512, Scalar.select (IntOp.cmpi .eq (BitVec.ofNat 32 t.val) g) (-(u t)) (0 : EReal) :=
        Finset.sum_add_distrib
    _ = u (col p) + -(u (col g)) := by
        -- both sums are one-hot selections, the second of the negated potentials
        rw [sum_select_eq u p hp, sum_select_eq (fun t => -(u t)) g hg]
    _ = u (col p) - u (col g) := (sub_eq_add_neg _ _).symm

end Cert.OneHot
-- ==== Proof.Words.lean ====
/-
  Tag words in range pass the host's guards unchanged.

  One program clamps each tag word into [0, 511] (a signed maximum with 0, then a signed minimum with 511)
  before use; both programs, when they index with a tag, first add 512 to a negative word. On a word whose
  signed value is already in [0, 512) all of these are the identity.
-/
import proofs.«403473_j8581344658203_3_alg».proof.Proof.Margin

namespace Cert.Words

open Idealize.ShloMosaic

/-- The word 0 has signed value 0. -/
private theorem toInt_zero : (0#32).toInt = 0 := by decide

/-- The word 511 has signed value 511. -/
private theorem toInt_511 : (511#32).toInt = 511 := by decide

/-- A one-bit word made from a false Boolean is 0, from a true one is 1. -/
private theorem ofBool_false_of_not {b : Bool} (h : ¬ b = true) : BitVec.ofBool b = 0#1 := by
  cases b
  · rfl
  · exact absurd rfl h

private theorem ofBool_true_of {b : Bool} (h : b = true) : BitVec.ofBool b = 1#1 := by
  subst h; rfl

/-- Clamping into [0, 511] leaves a word in [0, 512) as it is. -/
theorem clamp_id (w : BitVec 32) (h0 : 0 ≤ w.toInt) (h1 : w.toInt < 512) :
    IntOp.minsi 511#32 (IntOp.maxsi 0#32 w) = w := by
  -- the maximum with 0: `w` is not below 0, so the maximum is `w`
  have ha : ¬ w.slt 0#32 = true := by
    rw [BitVec.slt_iff_toInt_lt, toInt_zero]; omega
  -- the minimum with 511: 511 is not below `w`, so the minimum is `w`
  have hb : ¬ (511#32).slt w = true := by
    rw [BitVec.slt_iff_toInt_lt, toInt_511]; omega
  have hmax : IntOp.maxsi 0#32 w = w := if_neg ha
  rw [hmax]
  exact if_neg hb

/-- The wrap of negative indices leaves a non-negative word as it is. -/
theorem wrap_id (w : BitVec 32) (h0 : 0 ≤ w.toInt) :
    Scalar.select (IntOp.cmpi .slt w 0#32) (IntOp.addi w 512#32) w = w := by
  have ha : ¬ w.slt 0#32 = true := by
    rw [BitVec.slt_iff_toInt_lt, toInt_zero]; omega
  have hc : IntOp.cmpi .slt w 0#32 = 0#1 := ofBool_false_of_not ha
  rw [hc]
  exact ValueIdx.select_zero _ _

/-- A word in [0, 512) passes the range test `0 ≤ w ∧ w ≤ 511`. -/
theorem inrange_bit (w : BitVec 32) (h0 : 0 ≤ w.toInt) (h1 : w.toInt < 512) :
    IntOp.andi (IntOp.cmpi .sge w 0#32) (IntOp.cmpi .sle w 511#32) = 1#1 := by
  -- `w ≥ 0` is `0 ≤ w` read signed
  have ha : (0#32).sle w = true := by
    rw [BitVec.sle_iff_toInt_le, toInt_zero]; exact h0
  -- `w ≤ 511` read signed
  have hb : w.sle 511#32 = true := by
    rw [BitVec.sle_iff_toInt_le, toInt_511]; omega
  have hc : IntOp.cmpi .sge w 0#32 = 1#1 := ofBool_true_of ha
  have hd : IntOp.cmpi .sle w 511#32 = 1#1 := ofBool_true_of hb
  rw [hc, hd]
  rfl

end Cert.Words
-- ==== Proof.Join.lean ====
/-
  The two programs' results are equal under the precondition.

  The precondition makes every potential a real number and every tag a word in [0, 512). Then the clamp the
  kernel program applies to the tags is the identity, its one-hot selections are the potentials in the tags'
  columns, and its gathers of the transition table read the same index pairs as the reference's. What is left
  is arithmetic on reals: the kernel program sums weighted differences, block by block; the reference
  subtracts two weighted sums.
-/
import proofs.«403473_j8581344658203_3_alg».proof.Proof.KTail
import proofs.«403473_j8581344658203_3_alg».proof.Proof.KPre
import proofs.«403473_j8581344658203_3_alg».proof.Proof.Shared
import proofs.«403473_j8581344658203_3_alg».proof.Proof.RefValue
import proofs.«403473_j8581344658203_3_alg».proof.Proof.Bridge
import proofs.«403473_j8581344658203_3_alg».proof.Proof.Decode
import proofs.«403473_j8581344658203_3_alg».proof.Proof.OneHot
import proofs.«403473_j8581344658203_3_alg».proof.Proof.Words

noncomputable section

open scoped BigOperators

namespace Cert.Join

open Cert.KernelIdeal Cert.KernelIdeal.Gen Cert.KernelIdeal.Accum Cert.KernelIdeal.Arr Cert.KernelIdeal.Host
open Cert.KernelIdeal.TailFn Cert.KernelIdeal.Tail
open Idealize.ShloMosaic Idealize.ShloMosaic.TcCoe Idealize.SL.Sem Idealize.ShloMosaic.ValueIdx
open Cert.Margin

variable [Cert.Pre_finite_inputs.Facts]
variable (m : (ℓ : Loc nD τ sig) → Buf (Elt Ideal) ℓ)

/-- The clamp is the identity on an array of tags in range. -/
theorem clamp_of_range (x : IVec S32x2048 32) (hx : ∀ i, 0 ≤ (x i).toInt ∧ (x i).toInt < 512) : clampArr x = x := by
  funext i
  show IntOp.minsi (broadcastInDim S32x2048 ![] bcast_S_S32x2048 (id (constantI S_ 32 511#32)) i)
      (IntOp.maxsi (broadcastInDim S32x2048 ![] bcast_S_S32x2048 (id (constantI S_ 32 0#32)) i) (x i)) = x i
  rw [broadcastInDim_scalar_apply, broadcastInDim_scalar_apply]
  exact Cert.Words.clamp_id (x i) (hx i).1 (hx i).2

/-- A row of the kernel program's result array, once the region's arrays are the program's arguments: the
    block-wise sum of the weighted differences of the selected potentials. -/
theorem rowSum_eq (c : Dev nD) (U : FVec Ideal S32x2048x512 .f32) (tg pg mk : IVec S32x2048 32)
    (hU : UA m c = U) (hG : GA m c = tg) (hP : PA m c = pg) (hW : WA m c = validArr mk)
    (htg : ∀ i, 0 ≤ (tg i).toInt ∧ (tg i).toInt < 512) (hpg : ∀ i, 0 ≤ (pg i).toInt ∧ (pg i).toInt < 512) (b : Fin 32) :
    rowSum m c b = ∑ j : Fin 8, ∑ k : Fin 256,
      (pick U pg b (finProdFinEquiv (j, k)) - pick U tg b (finProdFinEquiv (j, k))) * validArr mk (ix2 b (finProdFinEquiv (j, k))) := by
  unfold rowSum hotdiff
  rw [hU, hG, hP, hW]
  refine Finset.sum_congr rfl fun j _ => Finset.sum_congr rfl fun k _ => ?_
  refine congrArg₂ (· * ·) ?_ rfl
  exact Cert.OneHot.sum_select_sub_eq (fun tt => U (ix3 b (finProdFinEquiv (j, k)) tt)) _ _
    (toNat_of_range _ (hpg _).1 (hpg _).2).1 (toNat_of_range _ (htg _).1 (htg _).2).1

/-- A validity weight is 0 or 1, a real number. -/
theorem valid_real (mk : IVec S32x2048 32) (i : S32x2048.Idx) : ∃ r : ℝ, validArr mk i = (r : EReal) := by
  unfold validArr
  exact ⟨_, rfl⟩

theorem validPair_real (mk : IVec S32x2048 32) (i : S32x2047.Idx) : ∃ r : ℝ, validPairArr mk i = (r : EReal) := by
  unfold validPairArr
  exact ⟨_, rfl⟩

/-- A gathered transition potential is an entry of the table, so a real number when the table's entries are. -/
theorem trans_real (Bn : FVec Ideal S512x512 .f32) (hB : ∀ i, ∃ r : ℝ, Bn i = (r : EReal)) (x : IVec S32x2048 32)
    (j : S32x2047.Idx) : ∃ r : ℝ, Cert.KernelIdeal.Host.trans Bn x j = (r : EReal) := by
  unfold Cert.KernelIdeal.Host.trans Host.gather
  exact hB _

/-- The selected potential is an entry of the potentials. -/
theorem pick_real (U : FVec Ideal S32x2048x512 .f32) (hU : ∀ i, ∃ r : ℝ, U i = (r : EReal)) (t : IVec S32x2048 32)
    (b : Fin 32) (s : Fin 2048) : ∃ r : ℝ, pick U t b s = (r : EReal) := by
  unfold pick
  exact hU _

/-- The kernel program's result, read, once the region's arrays are identified with the arguments. -/
theorem kernel_read (c : Dev nD) (U : FVec Ideal S32x2048x512 .f32) (Bn : FVec Ideal S512x512 .f32) (tg pg mk : IVec S32x2048 32)
    (eU : UA m c = U) (eB : BA m c = Bn) (eG : GA m c = tg) (eP : PA m c = pg) (eW : WA m c = validArr mk)
    (eT : WT m c = validPairArr mk)
    (htg : ∀ i, 0 ≤ (tg i).toInt ∧ (tg i).toInt < 512) (hpg : ∀ i, 0 ≤ (pg i).toInt ∧ (pg i).toInt < 512) (i : S_.Idx) :
    result m c i = 0 + ∑ b : Fin 32, max
      ((∑ j : Fin 8, ∑ k : Fin 256,
          (pick U pg b (finProdFinEquiv (j, k)) - pick U tg b (finProdFinEquiv (j, k))) * validArr mk (ix2 b (finProdFinEquiv (j, k))))
        + (0 + ∑ k : Fin 2047, (Cert.KernelIdeal.Host.trans Bn pg (ix2 b k) - Cert.KernelIdeal.Host.trans Bn tg (ix2 b k)) * validPairArr mk (ix2 b k)))
      (0 : EReal) := by
  unfold result
  refine (tailFn_apply _ _ _ _ _ i).trans ?_
  rw [eG, eP, eB, eT]
  refine congrArg₂ (· + ·) rfl (Finset.sum_congr rfl fun b _ => ?_)
  refine congrArg₂ max (congrArg₂ (· + ·) ?_ rfl) rfl
  exact rowSum_eq m c U tg pg mk eU eG eP eW htg hpg b

/-- The reference's result, read, in the kernel program's names for the shared host arrays. -/
theorem reference_read (U : FVec Ideal S32x2048x512 .f32) (Bn : FVec Ideal S512x512 .f32) (tg pg mk : IVec S32x2048 32)
    (htg : ∀ i, 0 ≤ (tg i).toInt ∧ (tg i).toInt < 512) (hpg : ∀ i, 0 ≤ (pg i).toInt ∧ (pg i).toInt < 512) (i : S_.Idx) :
    Cert.ReferenceIdeal.ReadP.val_main_v81 (F := Ideal) U Bn tg pg mk i = 0 + ∑ b : Fin 32, max
      (((0 + ∑ s : Fin (8 * 256), pick U pg b s * validArr mk (ix2 b s))
          + (0 + ∑ k : Fin 2047, Cert.KernelIdeal.Host.trans Bn pg (ix2 b k) * validPairArr mk (ix2 b k)))
        - ((0 + ∑ s : Fin (8 * 256), pick U tg b s * validArr mk (ix2 b s))
          + (0 + ∑ k : Fin 2047, Cert.KernelIdeal.Host.trans Bn tg (ix2 b k) * validPairArr mk (ix2 b k))))
      (0 : EReal) := by
  rw [Cert.ReferenceIdeal.RefValue.result_eq U Bn tg pg mk htg hpg,
    Cert.Shared.valid_gold_eq mk, Cert.Shared.validPair_gold_eq mk,
    ← Cert.Shared.valid_eq mk, ← Cert.Shared.validPair_eq mk, ← Cert.Shared.trans_pred_eq Bn pg, ← Cert.Shared.trans_gold_eq Bn tg]

/-- The two reads are equal: the comparison on the reals. -/
theorem reads_eq (U : FVec Ideal S32x2048x512 .f32) (Bn : FVec Ideal S512x512 .f32) (tg pg mk : IVec S32x2048 32)
    (hU : ∀ i, ∃ r : ℝ, U i = (r : EReal)) (hB : ∀ i, ∃ r : ℝ, Bn i = (r : EReal)) :
    (0 + ∑ b : Fin 32, max
      ((∑ j : Fin 8, ∑ k : Fin 256,
          (pick U pg b (finProdFinEquiv (j, k)) - pick U tg b (finProdFinEquiv (j, k))) * validArr mk (ix2 b (finProdFinEquiv (j, k))))
        + (0 + ∑ k : Fin 2047, (Cert.KernelIdeal.Host.trans Bn pg (ix2 b k) - Cert.KernelIdeal.Host.trans Bn tg (ix2 b k)) * validPairArr mk (ix2 b k)))
      (0 : EReal))
    = 0 + ∑ b : Fin 32, max
      (((0 + ∑ s : Fin (8 * 256), pick U pg b s * validArr mk (ix2 b s))
          + (0 + ∑ k : Fin 2047, Cert.KernelIdeal.Host.trans Bn pg (ix2 b k) * validPairArr mk (ix2 b k)))
        - ((0 + ∑ s : Fin (8 * 256), pick U tg b s * validArr mk (ix2 b s))
          + (0 + ∑ k : Fin 2047, Cert.KernelIdeal.Host.trans Bn tg (ix2 b k) * validPairArr mk (ix2 b k))))
      (0 : EReal) :=
  Cert.Bridge.margin_total_eq (fun b s => pick U pg b s) (fun b s => pick U tg b s) (fun b s => validArr mk (ix2 b s))
    (fun b k => Cert.KernelIdeal.Host.trans Bn pg (ix2 b k)) (fun b k => Cert.KernelIdeal.Host.trans Bn tg (ix2 b k))
    (fun b k => validPairArr mk (ix2 b k))
    (fun b s => pick_real U hU pg b s) (fun b s => pick_real U hU tg b s) (fun b s => valid_real mk _)
    (fun b k => trans_real Bn hB pg _) (fun b k => trans_real Bn hB tg _) (fun b k => validPair_real mk _)

/-- Under the precondition the kernel program's result is the reference's result of the same arguments. -/
theorem result_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    result m c = Cert.ReferenceIdeal.ReadP.val_main_v81 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  have hU := Cert.Decode.unary_real _ _ _ _ _ hpre
  have hB := Cert.Decode.binary_real _ _ _ _ _ hpre
  have htg := Cert.Decode.tags_range _ _ _ _ _ hpre
  have hpg := Cert.Decode.pred_range _ _ _ _ _ hpre
  funext i
  refine (kernel_read m c _ _ _ _ _ (V_main_arg0 m c) (V_main_arg1 m c)
    ((Cert.KernelIdeal.Pre.gold_eq m c).trans (clamp_of_range _ htg))
    ((Cert.KernelIdeal.Pre.pred_eq m c).trans (clamp_of_range _ hpg))
    (Cert.KernelIdeal.Pre.valid_eq m c) (Cert.KernelIdeal.Pre.validPair_eq m c) htg hpg i).trans ?_
  exact (reads_eq _ _ _ _ _ hU hB).trans (reference_read _ _ _ _ _ htg hpg i).symm

end Cert.Join

end
-- ==== Proof.lean ====
/-
  A structured-prediction hinge loss, computed two ways.

  For a batch of 32 sequences of 2048 positions with 512 tags, a tagging's score is the sum over the valid
  positions of the unary potential of the position's tag plus the sum over the valid adjacent pairs of the
  transition potential of the pair's two tags; a position is valid when its number is below the row's length,
  the sum of the row's mask. The loss is the sum over the batch of the predicted tagging's score minus the gold
  tagging's, clamped at zero.

  The reference scores the two taggings separately, by a gather along the tag axis, and subtracts. The kernel
  program clamps the tags into range, and in one pass over the potentials selects both tags' entries by
  comparing column numbers with the tag words, subtracts them, weights and sums, accumulating eight
  position-blocks into each row of a [32, 1] array; the host then adds the transition terms' weighted
  differences, clamps at zero and sums.

  Under the precondition — every potential finite, every tag and predicted tag in [0, 512) — the two agree over
  the extended reals: the clamp is then the identity, the one-hot selection is the gather, and the rest is the
  distributivity of subtraction over finite sums of reals. The frames of the two kernel programs are the
  generated ones; the reference's frame is its run with the result dropped; the idealization rewrote nothing.
-/
import proofs.«403473_j8581344658203_3_alg».proof.Defs
import proofs.«403473_j8581344658203_3_alg».proof.Proof.Gen.Kernel
import proofs.«403473_j8581344658203_3_alg».proof.Proof.Gen.Kernel.Skeleton
import proofs.«403473_j8581344658203_3_alg».proof.Proof.Gen.Kernel.Launch
import proofs.«403473_j8581344658203_3_alg».proof.Proof.Gen.Kernel.Points
import proofs.«403473_j8581344658203_3_alg».proof.Proof.Gen.Kernel.Frame
import proofs.«403473_j8581344658203_3_alg».proof.Proof.Gen.KernelIdeal
import proofs.«403473_j8581344658203_3_alg».proof.Proof.Gen.KernelIdeal.Skeleton
import proofs.«403473_j8581344658203_3_alg».proof.Proof.Gen.KernelIdeal.Launch
import proofs.«403473_j8581344658203_3_alg».proof.Proof.Gen.KernelIdeal.Points
import proofs.«403473_j8581344658203_3_alg».proof.Proof.Gen.KernelIdeal.Frame
import proofs.«403473_j8581344658203_3_alg».proof.Proof.Gen.ReferenceIdeal
import proofs.«403473_j8581344658203_3_alg».proof.Proof.Gen.Pre_finite_inputs
import proofs.«403473_j8581344658203_3_alg».proof.Proof.Join
import Idealize.ShloMosaic.Adequacy
import Idealize.ShloMosaic.Init

noncomputable section

namespace Cert.Proof

open Idealize.ShloMosaic Idealize.SL.Sem

/-- The word-level kernel program runs and keeps its arguments. -/
theorem frame_kernel : @Cert.frame_Kernel Cert.Kernel.Gen.facts Cert.Pre_finite_inputs.Gen.facts :=
  fun m ρ _ => Cert.Kernel.Gen.frame m ρ

/-- The idealized kernel program runs and keeps its arguments. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run, the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- From memories that agree on the arguments, both idealized programs run and return the same extended real. -/
theorem algebraic :
    @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v81_eq, (hagree c).1, (hagree c).2.1, (hagree c).2.2.1, (hagree c).2.2.2.1,
    (hagree c).2.2.2.2]
  exact (Cert.Join.result_eq m c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
